-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S11 : Shape := ⟨1, ![11]⟩
abbrev S200000 : Shape := ⟨1, ![200000]⟩
abbrev S2x12800000 : Shape := ⟨2, ![2, 12800000]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S11 : S_.BroadcastsInDim S11 (![] : Fin 0 → Fin S11.rank)
  reducesTo_S11_S_d0 : S11.ReducesTo [0] S_
  bcast_S_S2x12800000 : S_.BroadcastsInDim S2x12800000 (![] : Fin 0 → Fin S2x12800000.rank)
  reducesTo_S2x12800000_S_d0_1 : S2x12800000.ReducesTo [0, 1] S_

variable [Facts]

def fn_part1 {F : FTy → Type} [FloatOps F] (main_arg4 : IVec S2x12800000 32) (main_v13 : IVec S_ 1) (main_v15 : IVec S2x12800000 1) (main_c_5 : IVec S_ 32) : IVec S_ 1 :=
  let main_v16 : IVec S2x12800000 32 := broadcastInDim S2x12800000 ![] bcast_S_S2x12800000 main_c_5
  let main_v17 : IVec S2x12800000 1 := cmpi .slt main_arg4 main_v16
  let main_v18 : IVec S2x12800000 1 := andi main_v15 main_v17
  let main_c_6 : IVec S_ 1 := constantI S_ 1 1#1
  let main_v19 : IVec S_ 1 := (fun x v => Host.reduce IntOp.andi x v reducesTo_S2x12800000_S_d0_1 h_S_) main_v18 main_c_6
  let main_v20 : IVec S_ 1 := andi main_v13 main_v19
  main_v20

def fn {F : FTy → Type} [FloatOps F] (main_arg0 : FVec F S200000x3 .f32) (main_arg1 : FVec F S11 .f32) (main_arg2 : FVec F S11 .f32) (main_arg3 : IVec S200000 32) (main_arg4 : IVec S2x12800000 32) (main_arg5 : IVec S200000 32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S11 .f32 := Host.absf main_arg1
  let main_cst_0 : FVec F S_ .f32 := constant S_ .f32 0x7F800000#32
  let main_v5 : FVec F S11 .f32 := broadcastInDim S11 ![] bcast_S_S11 main_cst_0
  let main_v6 : IVec S11 1 := cmpf .olt main_v4 main_v5
  let main_c_1 : IVec S_ 1 := constantI S_ 1 1#1
  let main_v7 : IVec S_ 1 := (fun x v => Host.reduce IntOp.andi x v reducesTo_S11_S_d0 h_S_) main_v6 main_c_1
  let main_v8 : IVec S_ 1 := andi main_v3 main_v7
  let main_v9 : FVec F S11 .f32 := Host.absf main_arg2
  let main_cst_2 : FVec F S_ .f32 := constant S_ .f32 0x7F800000#32
  let main_v10 : FVec F S11 .f32 := broadcastInDim S11 ![] bcast_S_S11 main_cst_2
  let main_v11 : IVec S11 1 := cmpf .olt main_v9 main_v10
  let main_c_3 : IVec S_ 1 := constantI S_ 1 1#1
  let main_v12 : IVec S_ 1 := (fun x v => Host.reduce IntOp.andi x v reducesTo_S11_S_d0 h_S_) main_v11 main_c_3
  let main_v13 : IVec S_ 1 := andi main_v8 main_v12
  let main_c_4 : IVec S_ 32 := constantI S_ 32 0#32
  let main_v14 : IVec S2x12800000 32 := broadcastInDim S2x12800000 ![] bcast_S_S2x12800000 main_c_4
  let main_v15 : IVec S2x12800000 1 := cmpi .sge main_arg4 main_v14
  let main_c_5 : IVec S_ 32 := constantI S_ 32 200000#32
  fn_part1 (F := F) main_arg4 main_v13 main_v15 main_c_5
-- ==== Kernel.lean ====
abbrev S200000x3 : Shape := ⟨2, ![200000, 3]⟩
abbrev S11 : Shape := ⟨1, ![11]⟩
abbrev S200000 : Shape := ⟨1, ![200000]⟩
abbrev S2x12800000 : Shape := ⟨2, ![2, 12800000]⟩
abbrev S1x12800000 : Shape := ⟨2, ![1, 12800000]⟩
abbrev S12800000 : Shape := ⟨1, ![12800000]⟩
abbrev S_ : Shape := ⟨0, ![]⟩
abbrev S200000x1 : Shape := ⟨2, ![200000, 1]⟩
abbrev S1x200000 : Shape := ⟨2, ![1, 200000]⟩
abbrev S6x200000 : Shape := ⟨2, ![6, 200000]⟩
abbrev S12800000x1 : Shape := ⟨2, ![12800000, 1]⟩
abbrev S1 : Shape := ⟨1, ![1]⟩
abbrev S1x1 : Shape := ⟨2, ![1, 1]⟩
abbrev S6x12800000 : Shape := ⟨2, ![6, 12800000]⟩
abbrev S6x128000 : Shape := ⟨2, ![6, 128000]⟩
abbrev S1x128000 : Shape := ⟨2, ![1, 128000]⟩
abbrev S128000 : Shape := ⟨1, ![128000]⟩
abbrev S2048 : Shape := ⟨1, ![2048]⟩
abbrev S2048x1 : Shape := ⟨2, ![2048, 1]⟩

abbrev nBuf : Space → Nat
  | .hbm => 102
  | .vmem => 6
  | .smem => 0
  | _ => 0

abbrev bufTy : (tb : Table) → Fin (tcTables nBuf tb) → BufTy
  | .hbm, ⟨0, _⟩ => ⟨S200000x3, .f32⟩
  | .hbm, ⟨1, _⟩ => ⟨S11, .f32⟩
  | .hbm, ⟨2, _⟩ => ⟨S11, .f32⟩
  | .hbm, ⟨3, _⟩ => ⟨S200000, .i32⟩
  | .hbm, ⟨4, _⟩ => ⟨S2x12800000, .i32⟩
  | .hbm, ⟨5, _⟩ => ⟨S200000, .i32⟩
  | .hbm, ⟨6, _⟩ => ⟨S1x12800000, .i32⟩
  | .hbm, ⟨7, _⟩ => ⟨S12800000, .i32⟩
  | .hbm, ⟨8, _⟩ => ⟨S1x12800000, .i32⟩
  | .hbm, ⟨9, _⟩ => ⟨S12800000, .i32⟩
  | .hbm, ⟨10, _⟩ => ⟨S_, .i32⟩
  | .hbm, ⟨11, _⟩ => ⟨S200000, .i32⟩
  | .hbm, ⟨12, _⟩ => ⟨S200000, .i1⟩
  | .hbm, ⟨13, _⟩ => ⟨S_, .i32⟩
  | .hbm, ⟨14, _⟩ => ⟨S200000, .i32⟩
  | .hbm, ⟨15, _⟩ => ⟨S200000, .i32⟩
  | .hbm, ⟨16, _⟩ => ⟨S200000, .i32⟩
  | .hbm, ⟨17, _⟩ => ⟨S200000x1, .i32⟩
  | .hbm, ⟨18, _⟩ => ⟨S200000, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000, .f32⟩
  | .hbm, ⟨28, _⟩ => ⟨S200000, .f32⟩
  | .hbm, ⟨29, _⟩ => ⟨S200000x1, .f32⟩
  | .hbm, ⟨30, _⟩ => ⟨S200000, .f32⟩
  | .hbm, ⟨31, _⟩ => ⟨S200000x1, .f32⟩
  | .hbm, ⟨32, _⟩ => ⟨S200000, .f32⟩
  | .hbm, ⟨33, _⟩ => ⟨S200000x1, .f32⟩
  | .hbm, ⟨34, _⟩ => ⟨S200000, .f32⟩
  | .hbm, ⟨35, _⟩ => ⟨S1x200000, .f32⟩
  | .hbm, ⟨36, _⟩ => ⟨S1x200000, .f32⟩
  | .hbm, ⟨37, _⟩ => ⟨S1x200000, .f32⟩
  | .hbm, ⟨38, _⟩ => ⟨S1x200000, .f32⟩
  | .hbm, ⟨39, _⟩ => ⟨S1x200000, .f32⟩
  | .hbm, ⟨40, _⟩ => ⟨S1x200000, .f32⟩
  | .hbm, ⟨41, _⟩ => ⟨S6x200000, .f32⟩
  | .hbm, ⟨42, _⟩ => ⟨S_, .i32⟩
  | .hbm, ⟨43, _⟩ => ⟨S12800000, .i32⟩
  | .hbm, ⟨44, _⟩ => ⟨S12800000, .i1⟩
  | .hbm, ⟨45, _⟩ => ⟨S_, .i32⟩
  | .hbm, ⟨46, _⟩ => ⟨S12800000, .i32⟩
  | .hbm, ⟨47, _⟩ => ⟨S12800000, .i32⟩
  | .hbm, ⟨48, _⟩ => ⟨S12800000, .i32⟩
  | .hbm, ⟨49, _⟩ => ⟨S12800000x1, .i32⟩
  | .hbm, ⟨50, _⟩ => ⟨S1, .i32⟩
  | .hbm, ⟨51, _⟩ => ⟨S_, .i32⟩
  | .hbm, ⟨52, _⟩ => ⟨S12800000x1, .i32⟩
  | .hbm, ⟨53, _⟩ => ⟨S12800000x1, .i1⟩
  | .hbm, ⟨54, _⟩ => ⟨S1x1, .i32⟩
  | .hbm, ⟨55, _⟩ => ⟨S12800000x1, .i32⟩
  | .hbm, ⟨56, _⟩ => ⟨S12800000x1, .i1⟩
  | .hbm, ⟨57, _⟩ => ⟨S12800000x1, .i1⟩
  | .hbm, ⟨58, _⟩ => ⟨S_, .i1⟩
  | .hbm, ⟨59, _⟩ => ⟨S12800000, .i1⟩
  | .hbm, ⟨60, _⟩ => ⟨S6x12800000, .f32⟩
  | .hbm, ⟨61, _⟩ => ⟨S6x12800000, .i1⟩
  | .hbm, ⟨62, _⟩ => ⟨S_, .f32⟩
  | .hbm, ⟨63, _⟩ => ⟨S6x12800000, .f32⟩
  | .hbm, ⟨64, _⟩ => ⟨S6x12800000, .f32⟩
  | .hbm, ⟨65, _⟩ => ⟨S_, .i32⟩
  | .hbm, ⟨66, _⟩ => ⟨S12800000, .i32⟩
  | .hbm, ⟨67, _⟩ => ⟨S12800000, .i1⟩
  | .hbm, ⟨68, _⟩ => ⟨S_, .i32⟩
  | .hbm, ⟨69, _⟩ => ⟨S12800000, .i32⟩
  | .hbm, ⟨70, _⟩ => ⟨S12800000, .i32⟩
  | .hbm, ⟨71, _⟩ => ⟨S12800000, .i32⟩
  | .hbm, ⟨72, _⟩ => ⟨S12800000x1, .i32⟩
  | .hbm, ⟨73, _⟩ => ⟨S1, .i32⟩
  | .hbm, ⟨74, _⟩ => ⟨S_, .i32⟩
  | .hbm, ⟨75, _⟩ => ⟨S12800000x1, .i32⟩
  | .hbm, ⟨76, _⟩ => ⟨S12800000x1, .i1⟩
  | .hbm, ⟨77, _⟩ => ⟨S1x1, .i32⟩
  | .hbm, ⟨78, _⟩ => ⟨S12800000x1, .i32⟩
  | .hbm, ⟨79, _⟩ => ⟨S12800000x1, .i1⟩
  | .hbm, ⟨80, _⟩ => ⟨S12800000x1, .i1⟩
  | .hbm, ⟨81, _⟩ => ⟨S_, .i1⟩
  | .hbm, ⟨82, _⟩ => ⟨S12800000, .i1⟩
  | .hbm, ⟨83, _⟩ => ⟨S6x12800000, .f32⟩
  | .hbm, ⟨84, _⟩ => ⟨S6x12800000, .i1⟩
  | .hbm, ⟨85, _⟩ => ⟨S_, .f32⟩
  | .hbm, ⟨86, _⟩ => ⟨S6x12800000, .f32⟩
  | .hbm, ⟨87, _⟩ => ⟨S6x12800000, .f32⟩
  | .hbm, ⟨88, _⟩ => ⟨S1x12800000, .f32⟩
  | .hbm, ⟨89, _⟩ => ⟨S12800000, .f32⟩
  | .hbm, ⟨90, _⟩ => ⟨S12800000, .f32⟩
  | .hbm, ⟨91, _⟩ => ⟨S12800000, .i32⟩
  | .hbm, ⟨92, _⟩ => ⟨S1x12800000, .f32⟩
  | .hbm, ⟨93, _⟩ => ⟨S12800000, .f32⟩
  | .hbm, ⟨94, _⟩ => ⟨S_, .f32⟩
  | .hbm, ⟨95, _⟩ => ⟨S2048, .f32⟩
  | .hbm, ⟨96, _⟩ => ⟨S12800000x1, .i32⟩
  | .hbm, ⟨97, _⟩ => ⟨S2048, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S2048x1, .f32⟩
  | .local _ .vmem, ⟨0, _⟩ => ⟨S6x128000, .f32⟩
  | .local _ .vmem, ⟨1, _⟩ => ⟨S6x128000, .f32⟩
  | .local _ .vmem, ⟨2, _⟩ => ⟨S6x128000, .f32⟩
  | .local _ .vmem, ⟨3, _⟩ => ⟨S6x128000, .f32⟩
  | .local _ .vmem, ⟨4, _⟩ => ⟨S1x128000, .f32⟩
  | .local _ .vmem, ⟨5, _⟩ => ⟨S1x128000, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v32 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_3 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S200000 : S_.BroadcastsInDim S200000 (![] : Fin 0 → Fin S200000.rank)
  bcast_S200000_S200000x1_0 : S200000.BroadcastsInDim S200000x1 (![0] : Fin 1 → Fin S200000x1.rank)
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S200000_S1x200000_1 : S200000.BroadcastsInDim S1x200000 (![1] : Fin 1 → Fin S1x200000.rank)
  concatenates_S1x200000_S1x200000_S1x200000_S1x200000_S1x200000_S1x200000_S6x200000_d0 : Shape.Concatenates [S1x200000, S1x200000, S1x200000, S1x200000, S1x200000, S1x200000] S6x200000 0
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S12800000x1 : S_.BroadcastsInDim S12800000x1 (![] : Fin 0 → Fin S12800000x1.rank)
  bcast_S1_S1x1_1 : S1.BroadcastsInDim S1x1 (![1] : Fin 1 → Fin S1x1.rank)
  bcast_S1x1_S12800000x1_0_1 : S1x1.BroadcastsInDim S12800000x1 (![0, 1] : Fin 2 → Fin S12800000x1.rank)
  reducesTo_S12800000x1_S12800000_d1 : S12800000x1.ReducesTo [1] S12800000
  h_S_ : 0 < S_.numel
  bcast_S12800000_S6x12800000_1 : S12800000.BroadcastsInDim S6x12800000 (![1] : Fin 1 → Fin S6x12800000.rank)
  bcast_S_S6x12800000 : S_.BroadcastsInDim S6x12800000 (![] : Fin 0 → Fin S6x12800000.rank)
  slices_S6x12800000_S1x12800000_5_0 : S6x12800000.Slices ![5, 0] S1x12800000
  inb_S6x128000_S6x128000_0_0 : ∀ a, (![0, 0] : Fin 2 → Nat) a + S6x128000.size a ≤ S6x128000.size a
  h_S6x128000 : 0 < S6x128000.numel
  shapeCasts_S6x128000_S6x128000 : S6x128000.ShapeCasts S6x128000
  slices_S6x128000_o0_0_S1x128000 : S6x128000.Slices ![0, 0] S1x128000
  shapeCasts_S1x128000_S128000 : S1x128000.ShapeCasts S128000
  slices_S6x128000_o1_0_S1x128000 : S6x128000.Slices ![1, 0] S1x128000
  slices_S6x128000_o2_0_S1x128000 : S6x128000.Slices ![2, 0] S1x128000
  slices_S6x128000_o3_0_S1x128000 : S6x128000.Slices ![3, 0] S1x128000
  slices_S6x128000_o4_0_S1x128000 : S6x128000.Slices ![4, 0] S1x128000
  slices_S6x128000_o5_0_S1x128000 : S6x128000.Slices ![5, 0] S1x128000
  shapeCasts_S128000_S1x128000 : S128000.ShapeCasts S1x128000
  inb_S1x128000_S1x128000_0_0 : ∀ a, (![0, 0] : Fin 2 → Nat) a + S1x128000.size a ≤ S1x128000.size a
  h_S1x128000 : 0 < S1x128000.numel
  bcast_S_S2048 : S_.BroadcastsInDim S2048 (![] : Fin 0 → Fin S2048.rank)
  shapeCasts_S2048_S2048x1 : S2048.ShapeCasts S2048x1
  gather_S11_S200000x1_S200000_n_0_n_n_0_1_1_wf : GatherDims.WF S11 S200000x1 S200000 [] [0] [] [0] [] 1 ![1]
  gather_S6x200000_S12800000x1_S6x12800000_0_1_n_n_1_1_61_wf : GatherDims.WF S6x200000 S12800000x1 S6x12800000 [0] [1] [] [1] [] 1 ![6, 1]
  scatter_S2048_S12800000x1_S12800000_n_0_0_1_wf : ScatterDims.WF S2048 S12800000x1 S12800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x128000.size a ≤ S6x12800000.size a
  hwx0_0 : ∀ i : grid0.Coords, EltTy.bits .f32 = 32 ∨ (Rect.block (s := S6x12800000) S6x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x128000.size a ≤ S6x12800000.size a
  hwx0_1 : ∀ i : grid0.Coords, EltTy.bits .f32 = 32 ∨ (Rect.block (s := S6x12800000) S6x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128000.size a ≤ S1x12800000.size a
  hwx0_2 : ∀ i : grid0.Coords, EltTy.bits .f32 = 32 ∨ (Rect.block (s := S1x12800000) S1x128000.size (cc0_transform_2 i) (hinb0_2 i)).WholeWords (EltTy.packing .f32)

variable [Facts₀]

def gather_S11_S200000x1_S200000_n_0_n_n_0_1_1 : GatherDims S11 S200000x1 S200000 where
  offsetDims := []
  collapsedSliceDims := [0]
  operandBatchingDims := []
  startIndicesBatchingDims := []
  startIndexMap := [0]
  indexVectorDim := 1
  sliceSizes := ![1]
  wf := gather_S11_S200000x1_S200000_n_0_n_n_0_1_1_wf
def gather_S6x200000_S12800000x1_S6x12800000_0_1_n_n_1_1_61 : GatherDims S6x200000 S12800000x1 S6x12800000 where
  offsetDims := [0]
  collapsedSliceDims := [1]
  operandBatchingDims := []
  startIndicesBatchingDims := []
  startIndexMap := [1]
  indexVectorDim := 1
  sliceSizes := ![6, 1]
  wf := gather_S6x200000_S12800000x1_S6x12800000_0_1_n_n_1_1_61_wf
def scatter_S2048_S12800000x1_S12800000_n_0_0_1 : ScatterDims S2048 S12800000x1 S12800000 where
  updateWindowDims := []
  insertedWindowDims := [0]
  scatterDimsToOperandDims := [0]
  indexVectorDim := 1
  wf := scatter_S2048_S12800000x1_S12800000_n_0_0_1_wf

abbrev win0_0 : Pipeline.Window sig grid0 :=
  Pipeline.Window.ofSpec (Memref.whole main_v32) S6x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S6x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x3 : Shape := ⟨2, ![200000, 3]⟩
abbrev S11 : Shape := ⟨1, ![11]⟩
abbrev S200000 : Shape := ⟨1, ![200000]⟩
abbrev S2x12800000 : Shape := ⟨2, ![2, 12800000]⟩
abbrev S1x12800000 : Shape := ⟨2, ![1, 12800000]⟩
abbrev S12800000 : Shape := ⟨1, ![12800000]⟩
abbrev S_ : Shape := ⟨0, ![]⟩
abbrev S12800000x1 : Shape := ⟨2, ![12800000, 1]⟩
abbrev S12800000x3 : Shape := ⟨2, ![12800000, 3]⟩
abbrev S2048 : Shape := ⟨1, ![2048]⟩
abbrev S2048x1 : Shape := ⟨2, ![2048, 1]⟩

abbrev nBuf : Space → Nat
  | .hbm => 166
  | .vmem => 0
  | .smem => 0
  | _ => 0

abbrev hbmTy0_0 (i : Nat) : BufTy := match i % 128 with
  | 0 => ⟨S200000x3, .f32⟩
  | 1 => ⟨S11, .f32⟩
  | 2 => ⟨S11, .f32⟩
  | 3 => ⟨S200000, .i32⟩
  | 4 => ⟨S2x12800000, .i32⟩
  | 5 => ⟨S200000, .i32⟩
  | 6 => ⟨S1x12800000, .i32⟩
  | 7 => ⟨S12800000, .i32⟩
  | 8 => ⟨S1x12800000, .i32⟩
  | 9 => ⟨S12800000, .i32⟩
  | 10 => ⟨S_, .i32⟩
  | 11 => ⟨S12800000, .i32⟩
  | 12 => ⟨S12800000, .i1⟩
  | 13 => ⟨S_, .i32⟩
  | 14 => ⟨S12800000, .i32⟩
  | 15 => ⟨S12800000, .i32⟩
  | 16 => ⟨S12800000, .i32⟩
  | 17 => ⟨S12800000x1, .i32⟩
  | 18 => ⟨S12800000, .i32⟩
  | 19 => ⟨S_, .i32⟩
  | 20 => ⟨S12800000, .i32⟩
  | 21 => ⟨S12800000, .i1⟩
  | 22 => ⟨S_, .i32⟩
  | 23 => ⟨S12800000, .i32⟩
  | 24 => ⟨S12800000, .i32⟩
  | 25 => ⟨S12800000, .i32⟩
  | 26 => ⟨S12800000x1, .i32⟩
  | 27 => ⟨S12800000, .i32⟩
  | 28 => ⟨S12800000, .i1⟩
  | 29 => ⟨S_, .i32⟩
  | 30 => ⟨S12800000, .i32⟩
  | 31 => ⟨S12800000, .i1⟩
  | 32 => ⟨S_, .i32⟩
  | 33 => ⟨S12800000, .i32⟩
  | 34 => ⟨S12800000, .i32⟩
  | 35 => ⟨S12800000, .i32⟩
  | 36 => ⟨S12800000x1, .i32⟩
  | 37 => ⟨S12800000x3, .f32⟩
  | 38 => ⟨S_, .i32⟩
  | 39 => ⟨S12800000, .i32⟩
  | 40 => ⟨S12800000, .i1⟩
  | 41 => ⟨S_, .i32⟩
  | 42 => ⟨S12800000, .i32⟩
  | 43 => ⟨S12800000, .i32⟩
  | 44 => ⟨S12800000, .i32⟩
  | 45 => ⟨S12800000x1, .i32⟩
  | 46 => ⟨S12800000x3, .f32⟩
  | 47 => ⟨S12800000x3, .f32⟩
  | 48 => ⟨S12800000x3, .f32⟩
  | 49 => ⟨S_, .f32⟩
  | 50 => ⟨S12800000, .f32⟩
  | 51 => ⟨S12800000, .f32⟩
  | 52 => ⟨S_, .f32⟩
  | 53 => ⟨S12800000, .f32⟩
  | 54 => ⟨S12800000, .f32⟩
  | 55 => ⟨S_, .f32⟩
  | 56 => ⟨S12800000, .f32⟩
  | 57 => ⟨S12800000, .i1⟩
  | 58 => ⟨S12800000, .i1⟩
  | 59 => ⟨S_, .f32⟩
  | 60 => ⟨S12800000, .f32⟩
  | 61 => ⟨S12800000, .f32⟩
  | 62 => ⟨S_, .i32⟩
  | 63 => ⟨S12800000, .i32⟩
  | 64 => ⟨S12800000, .i1⟩
  | 65 => ⟨S_, .i32⟩
  | 66 => ⟨S12800000, .i32⟩
  | 67 => ⟨S12800000, .i32⟩
  | 68 => ⟨S12800000, .i32⟩
  | 69 => ⟨S12800000x1, .i32⟩
  | 70 => ⟨S12800000, .i32⟩
  | 71 => ⟨S_, .i32⟩
  | 72 => ⟨S12800000, .i32⟩
  | 73 => ⟨S12800000, .i1⟩
  | 74 => ⟨S_, .i32⟩
  | 75 => ⟨S12800000, .i32⟩
  | 76 => ⟨S12800000, .i32⟩
  | 77 => ⟨S12800000, .i32⟩
  | 78 => ⟨S12800000x1, .i32⟩
  | 79 => ⟨S12800000, .f32⟩
  | 80 => ⟨S_, .i32⟩
  | 81 => ⟨S12800000, .i32⟩
  | 82 => ⟨S12800000, .i1⟩
  | 83 => ⟨S_, .i32⟩
  | 84 => ⟨S12800000, .i32⟩
  | 85 => ⟨S12800000, .i32⟩
  | 86 => ⟨S12800000, .i32⟩
  | 87 => ⟨S12800000x1, .i32⟩
  | 88 => ⟨S12800000, .i32⟩
  | 89 => ⟨S_, .i32⟩
  | 90 => ⟨S12800000, .i32⟩
  | 91 => ⟨S12800000, .i1⟩
  | 92 => ⟨S_, .i32⟩
  | 93 => ⟨S12800000, .i32⟩
  | 94 => ⟨S12800000, .i32⟩
  | 95 => ⟨S12800000, .i32⟩
  | 96 => ⟨S12800000x1, .i32⟩
  | 97 => ⟨S12800000, .f32⟩
  | 98 => ⟨S12800000, .f32⟩
  | 99 => ⟨S12800000, .f32⟩
  | 100 => ⟨S12800000, .f32⟩
  | 101 => ⟨S_, .f32⟩
  | 102 => ⟨S12800000, .f32⟩
  | 103 => ⟨S12800000, .f32⟩
  | 104 => ⟨S12800000, .f32⟩
  | 105 => ⟨S12800000, .f32⟩
  | 106 => ⟨S_, .i32⟩
  | 107 => ⟨S12800000, .i32⟩
  | 108 => ⟨S12800000, .i1⟩
  | 109 => ⟨S_, .i32⟩
  | 110 => ⟨S12800000, .i32⟩
  | 111 => ⟨S12800000, .i32⟩
  | 112 => ⟨S12800000, .i32⟩
  | 113 => ⟨S12800000x1, .i32⟩
  | 114 => ⟨S12800000, .i32⟩
  | 115 => ⟨S_, .i32⟩
  | 116 => ⟨S12800000, .i32⟩
  | 117 => ⟨S12800000, .i1⟩
  | 118 => ⟨S_, .i32⟩
  | 119 => ⟨S12800000, .i32⟩
  | 120 => ⟨S12800000, .i32⟩
  | 121 => ⟨S12800000, .i32⟩
  | 122 => ⟨S12800000x1, .i32⟩
  | 123 => ⟨S12800000, .f32⟩
  | 124 => ⟨S_, .i32⟩
  | 125 => ⟨S12800000, .i32⟩
  | 126 => ⟨S12800000, .i1⟩
  | 127 => ⟨S_, .i32⟩
  | _ => ⟨S200000x3, .f32⟩

abbrev hbmTy0_1 (i : Nat) : BufTy := match i % 128 with
  | 0 => ⟨S12800000, .i32⟩
  | 1 => ⟨S12800000, .i32⟩
  | 2 => ⟨S12800000, .i32⟩
  | 3 => ⟨S12800000x1, .i32⟩
  | 4 => ⟨S12800000, .i32⟩
  | 5 => ⟨S_, .i32⟩
  | 6 => ⟨S12800000, .i32⟩
  | 7 => ⟨S12800000, .i1⟩
  | 8 => ⟨S_, .i32⟩
  | 9 => ⟨S12800000, .i32⟩
  | 10 => ⟨S12800000, .i32⟩
  | 11 => ⟨S12800000, .i32⟩
  | 12 => ⟨S12800000x1, .i32⟩
  | 13 => ⟨S12800000, .f32⟩
  | 14 => ⟨S12800000, .f32⟩
  | 15 => ⟨S12800000, .f32⟩
  | 16 => ⟨S12800000, .f32⟩
  | 17 => ⟨S_, .f32⟩
  | 18 => ⟨S_, .f32⟩
  | 19 => ⟨S12800000, .f32⟩
  | 20 => ⟨S12800000, .f32⟩
  | 21 => ⟨S_, .i32⟩
  | 22 => ⟨S12800000, .i32⟩
  | 23 => ⟨S12800000, .i1⟩
  | 24 => ⟨S_, .i32⟩
  | 25 => ⟨S12800000, .i32⟩
  | 26 => ⟨S12800000, .i32⟩
  | 27 => ⟨S12800000, .i32⟩
  | 28 => ⟨S12800000x1, .i32⟩
  | 29 => ⟨S12800000, .i32⟩
  | 30 => ⟨S_, .f32⟩
  | 31 => ⟨S2048, .f32⟩
  | 32 => ⟨S12800000x1, .i32⟩
  | 33 => ⟨S2048, .f32⟩
  | 34 => ⟨S_, .f32⟩
  | 35 => ⟨S2048, .f32⟩
  | 36 => ⟨S2048, .f32⟩
  | 37 => ⟨S2048x1, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_c_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_17 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_18 : Ref sig .tc := ⟨.hbm, 106, rfl⟩
abbrev main_v77 : Ref sig .tc := ⟨.hbm, 107, rfl⟩
abbrev main_v78 : Ref sig .tc := ⟨.hbm, 108, rfl⟩
abbrev main_c_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_20 : Ref sig .tc := ⟨.hbm, 115, rfl⟩
abbrev main_v84 : Ref sig .tc := ⟨.hbm, 116, rfl⟩
abbrev main_v85 : Ref sig .tc := ⟨.hbm, 117, rfl⟩
abbrev main_c_21 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_22 : Ref sig .tc := ⟨.hbm, 124, rfl⟩
abbrev main_v91 : Ref sig .tc := ⟨.hbm, 125, rfl⟩
abbrev main_v92 : Ref sig .tc := ⟨.hbm, 126, rfl⟩
abbrev main_c_23 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_24 : Ref sig .tc := ⟨.hbm, 133, rfl⟩
abbrev main_v98 : Ref sig .tc := ⟨.hbm, 134, rfl⟩
abbrev main_v99 : Ref sig .tc := ⟨.hbm, 135, rfl⟩
abbrev main_c_25 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_26 : Ref sig .tc := ⟨.hbm, 145, rfl⟩
abbrev main_call1_v0 : Ref sig .tc := ⟨.hbm, 146, rfl⟩
abbrev main_call1_v1 : Ref sig .tc := ⟨.hbm, 147, rfl⟩
abbrev main_v108 : Ref sig .tc := ⟨.hbm, 148, rfl⟩
abbrev main_c_27 : Ref sig .tc := ⟨.hbm, 149, rfl⟩
abbrev main_v109 : Ref sig .tc := ⟨.hbm, 150, rfl⟩
abbrev main_v110 : Ref sig .tc := ⟨.hbm, 151, rfl⟩
abbrev main_c_28 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_29 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_30 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S12800000_S12800000x1_0 : S12800000.BroadcastsInDim S12800000x1 (![0] : Fin 1 → Fin S12800000x1.rank)
  reducesTo_S12800000x3_S12800000_d1 : S12800000x3.ReducesTo [1] S12800000
  h_S_ : 0 < S_.numel
  bcast_S_S2048 : S_.BroadcastsInDim S2048 (![] : Fin 0 → Fin S2048.rank)
  shapeCasts_S2048_S2048x1 : S2048.ShapeCasts S2048x1
  gather_S200000_S12800000x1_S12800000_n_0_n_n_0_1_1_wf : GatherDims.WF S200000 S12800000x1 S12800000 [] [0] [] [0] [] 1 ![1]
  gather_S200000x3_S12800000x1_S12800000x3_1_0_n_n_0_1_13_wf : GatherDims.WF S200000x3 S12800000x1 S12800000x3 [1] [0] [] [0] [] 1 ![1, 3]
  gather_S11_S12800000x1_S12800000_n_0_n_n_0_1_1_wf : GatherDims.WF S11 S12800000x1 S12800000 [] [0] [] [0] [] 1 ![1]
  scatter_S2048_S12800000x1_S12800000_n_0_0_1_wf : ScatterDims.WF S2048 S12800000x1 S12800000 [] [0] [0] 1

variable [Facts₀]

def gather_S200000_S12800000x1_S12800000_n_0_n_n_0_1_1 : GatherDims S200000 S12800000x1 S12800000 where
  offsetDims := []
  collapsedSliceDims := [0]
  operandBatchingDims := []
  startIndicesBatchingDims := []
  startIndexMap := [0]
  indexVectorDim := 1
  sliceSizes := ![1]
  wf := gather_S200000_S12800000x1_S12800000_n_0_n_n_0_1_1_wf
def gather_S200000x3_S12800000x1_S12800000x3_1_0_n_n_0_1_13 : GatherDims S200000x3 S12800000x1 S12800000x3 where
  offsetDims := [1]
  collapsedSliceDims := [0]
  operandBatchingDims := []
  startIndicesBatchingDims := []
  startIndexMap := [0]
  indexVectorDim := 1
  sliceSizes := ![1, 3]
  wf := gather_S200000x3_S12800000x1_S12800000x3_1_0_n_n_0_1_13_wf
def gather_S11_S12800000x1_S12800000_n_0_n_n_0_1_1 : GatherDims S11 S12800000x1 S12800000 where
  offsetDims := []
  collapsedSliceDims := [0]
  operandBatchingDims := []
  startIndicesBatchingDims := []
  startIndexMap := [0]
  indexVectorDim := 1
  sliceSizes := ![1]
  wf := gather_S11_S12800000x1_S12800000_n_0_n_n_0_1_1_wf
def scatter_S2048_S12800000x1_S12800000_n_0_0_1 : ScatterDims S2048 S12800000x1 S12800000 where
  updateWindowDims := []
  insertedWindowDims := [0]
  scatterDimsToOperandDims := [0]
  indexVectorDim := 1
  wf := scatter_S2048_S12800000x1_S12800000_n_0_0_1_wf

class Facts : Prop extends Facts₀ where

variable [Facts]
-- ==== Proof.KIData.lean ====
/-
  What the one pipelined call of the program works on, and what it leaves.

  The call streams the two per-edge feature arrays (six rows by 12 800 000 edges each: the features of the
  edge's source atom and of its destination atom) through blocks of 128 000 edges, a hundred of them, and
  writes one row of 12 800 000 numbers block by block.  Before the call the host builds the two feature arrays;
  `V` names what every buffer holds at that moment.  At grid point `t` the body sees block `t` of either input
  (`iblk`) and stores ONE vector over the whole output block: `out0_2`, the edge contributions of the block as
  the body's arithmetic computes them from the two input blocks.  `dats` collects this as the launch theorem's
  proof data: the arrays as the call finds them, each input's staging buffer holding its block after the body
  as before it, the output's holding `out0_2`.
-/
import proofs.«401051_j18562848654089_3_alg».proof.Proof.Gen.KernelIdeal.Launch
import proofs.«401051_j18562848654089_3_alg».proof.Proof.Gen.KernelIdeal.Skeleton
import proofs.«401051_j18562848654089_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The host's stretches of operations before the call, in order. -/
abbrev pre : List (List (HloOp τ sig (Elt F))) := [hostOps0, hostOps0_1, hostOps0_2, hostOps0_3, hostOps0_4, hostOps0_5]

/-- What core `c`'s buffers hold when the call is entered: the launch contents after the host operations before it. -/
abbrev V0 (c : Dev nD) : Valuation τ sig (Elt F) := StableHlo.after (List.flatten (pre (F := F))) (fun b => m (c, b))
/-- The same read at one buffer. -/
abbrev V (c : Dev nD) (b : Ref sig .tc) : Buf (Elt F) ((c : Thread nD τ).loc b) := V0 m c (Proc.devRef .tc b)

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of an input block (six rows, 128 000 edges). -/
abbrev rIn : Rect S6x128000 := Rect.unit (s := S6x128000) ![0, 0] S6x128000.size inb_S6x128000_S6x128000_0_0
/-- The whole of the output block (one row, 128 000 edges). -/
abbrev rOut : Rect S1x128000 := Rect.unit (s := S1x128000) ![0, 0] S1x128000.size inb_S1x128000_S1x128000_0_0

/-- The edge contributions of one block, as the body computes them from the block's source features `x0` and
    destination features `x1`: distance, screened repulsion, and the mask. -/
def blockVal (x0 x1 : Vec F S6x128000 .f32) : Vec F S1x128000 .f32 :=
  k0_pay1 (k0_pay4 (View.ld x0 rIn) (View.ld x1 rIn)) (k0_pay5 (View.ld x0 rIn) (View.ld x1 rIn))
    (k0_pay6 (View.ld x0 rIn)) (k0_pay7 (View.ld x1 rIn))

/-- What the output's staging buffer holds after the body: its one store, which covers the buffer. -/
def out0_2 (x0 x1 : Vec F S6x128000 .f32) : Vec F S1x128000 .f32 :=
  View.canon [⟨rOut, blockVal x0 x1⟩]

/-- The launch theorem's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Frame

end
-- ==== Proof.KIFrame.lean ====
/-
  The frame run of the idealized kernel program, at any float type.

  @main is six stretches of host operations (they build the per-atom feature table and gather its columns into
  the two per-edge feature arrays), one pipelined call over a hundred blocks of 128 000 edges, and nine more host
  operations (the sum of the edge contributions into the molecules).  Here: no host operation writes an argument
  array; the lines after the call touch only unscoped buffers, allocate nothing and write no array of the
  pipeline; the body, run on whole staging buffers holding the two input blocks, leaves the inputs as they were
  and the output buffer at the block's edge contributions; hence every weakly fair execution of @main terminates
  without fault, with every array of the call at what the proof data computes and every other buffer as the host
  operations leave it.  The frame claim (the six argument arrays end as launched) and the value of the result
  buffer are read off that run.
-/
import proofs.«401051_j18562848654089_3_alg».proof.Proof.Gen.KernelIdeal.Launch
import proofs.«401051_j18562848654089_3_alg».proof.Proof.Gen.KernelIdeal.Skeleton
import proofs.«401051_j18562848654089_3_alg».proof.Proof.Gen.KernelIdeal.Points
import proofs.«401051_j18562848654089_3_alg».proof.Proof.KIData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- No host operation allocates a buffer of unchosen contents. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every stretch before the call touches TensorCore references only. -/
theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub⟩
/-- And allocates nothing. -/
theorem pre_fresh : (pre (F := F)).Forall fun ops => ops.Forall fun op => op.fresh = ∅ :=
  ⟨hostOps0_fresh, hostOps0_1_fresh, hostOps0_2_fresh, hostOps0_3_fresh, hostOps0_4_fresh, hostOps0_5_fresh⟩

/-- @main around the call: the host stretches before it, the call, the host operations after it; it reduces to the
    call continued by the later operations, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The operations after the call touch the pipeline's arrays and the bypassing buffers only: each one's buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays through the host operations -/

set_option maxHeartbeats 1000000 in
/-- No host operation before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg5`: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation after the call writes `main_arg0`, and it is no array of the pipeline: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host operation after the call writes `main_arg1`, and it is no array of the pipeline: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host operation after the call writes `main_arg2`, and it is no array of the pipeline: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host operation after the call writes `main_arg3`, and it is no array of the pipeline: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
/-- No host operation after the call writes `main_arg4`, and it is no array of the pipeline: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
/-- No host operation after the call writes `main_arg5`, and it is no array of the pipeline: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The input windows' blocks -/

/-- Input window 0's current staging buffer holds its block at every point, fetched there or not, for any proof data
    whose array is the call-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the frame run's -/

/-- The six argument arrays are staged by no window, so the frame run's post reads each at what the operations after
    the call leave there, which is what was launched. -/
theorem frame_of
    (h : θ_run defs (onTc (τ := τ) (main (F := F))) (s₀ m ρ) (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩) h

/-! ## The body's triple -/

/-- The body's one store is of the whole output block, so it covers the buffer. -/
theorem cover0_2 (p0 : Vec F S1x128000 .f32) (y : S1x128000.Idx) :
    ∃ pc ∈ ([⟨rOut, p0⟩] : List (View.Piece (Elt F) S1x128000 .f32)), y ∈ pc.1.set :=
  View.cover_of_tiled [⟨rOut, p0⟩] S1x128000.size (by rfl) y

set_option maxHeartbeats 1000000 in
/-- The kernel body on whole staging buffers, the inputs' at contents `x0`, `x1` and the output's at anything, runs to
    the continuation holding the inputs' as they were and the output's at `out0_2 x0 x1`: it loads both input blocks
    whole, computes, loads the output block and stores the whole of it. -/
theorem sound_kernel (c : Dev nD) (E : Set ℕ) (i : grid0.Coords)
    (arg1 : Memref sig .tc .vmem S6x128000 .f32) (harg1 : arg1.IsWhole)
    (arg2 : Memref sig .tc .vmem S6x128000 .f32) (harg2 : arg2.IsWhole)
    (arg3 : Memref sig .tc .vmem S1x128000 .f32) (harg3 : arg3.IsWhole)
    (x0 x1 : Vec F S6x128000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__repulsion_kernel i arg1 harg1 arg2 harg2 arg3 harg3) K := by
  simp only [cc0__repulsion_kernel_eq_skeleton]; unfold cc0__repulsion_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The body obligation, at a generic point -/

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run, the frame and the result buffer -/

set_option backward.isDefEq.respectTransparency.types false in
/-- At the compiled mesh, for any values, from any memory with zero counters: every weakly fair execution of @main on the
    TensorCores terminates, and every final state has every array of the pipeline at what the proof data computes and
    every other unscoped buffer as the operations after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates without fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (run_main m ρ)

/-- The run read at the result buffer as well: it is no array of the pipeline and is not scoped, so it ends at what
    the operations after the call compute from the call's output. -/
theorem run_value : θ_run defs (onTc (τ := τ) (main (F := F))) ⟨m, fun _ => 0, ρ⟩ (fun r => ∀ c : Dev nD,
      r.2.mem ((c.tc : Thread nD τ).loc main_v45) = Pipeline.afterTail₀ cfgs (dats m) 0 (V0 m) [hostOps1] c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v45 (Pipeline.mem_restRefs_of main_v45 (by decide) (by decide)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩) (run_main m ρ)

/-- info: 'Cert.KernelIdeal.Frame.run_value' depends on axioms: [propext, Classical.choice, Quot.sound] -/
#guard_msgs in #print axioms run_value

end Cert.KernelIdeal.Frame

end
-- ==== Proof.KBData.lean ====
/-
  What the one pipelined call of the program works on, and what it leaves.

  The call streams the two per-edge feature arrays (six rows by 12 800 000 edges each: the features of the
  edge's source atom and of its destination atom) through blocks of 128 000 edges, a hundred of them, and
  writes one row of 12 800 000 numbers block by block.  Before the call the host builds the two feature arrays;
  `V` names what every buffer holds at that moment.  At grid point `t` the body sees block `t` of either input
  (`iblk`) and stores ONE vector over the whole output block: `out0_2`, the edge contributions of the block as
  the body's arithmetic computes them from the two input blocks.  `dats` collects this as the launch theorem's
  proof data: the arrays as the call finds them, each input's staging buffer holding its block after the body
  as before it, the output's holding `out0_2`.
-/
import proofs.«401051_j18562848654089_3_alg».proof.Proof.Gen.Kernel.Launch
import proofs.«401051_j18562848654089_3_alg».proof.Proof.Gen.Kernel.Skeleton
import proofs.«401051_j18562848654089_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The host's stretches of operations before the call, in order. -/
abbrev pre : List (List (HloOp τ sig (Elt F))) := [hostOps0, hostOps0_1, hostOps0_2, hostOps0_3, hostOps0_4, hostOps0_5]

/-- What core `c`'s buffers hold when the call is entered: the launch contents after the host operations before it. -/
abbrev V0 (c : Dev nD) : Valuation τ sig (Elt F) := StableHlo.after (List.flatten (pre (F := F))) (fun b => m (c, b))
/-- The same read at one buffer. -/
abbrev V (c : Dev nD) (b : Ref sig .tc) : Buf (Elt F) ((c : Thread nD τ).loc b) := V0 m c (Proc.devRef .tc b)

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole of an input block (six rows, 128 000 edges). -/
abbrev rIn : Rect S6x128000 := Rect.unit (s := S6x128000) ![0, 0] S6x128000.size inb_S6x128000_S6x128000_0_0
/-- The whole of the output block (one row, 128 000 edges). -/
abbrev rOut : Rect S1x128000 := Rect.unit (s := S1x128000) ![0, 0] S1x128000.size inb_S1x128000_S1x128000_0_0

/-- The edge contributions of one block, as the body computes them from the block's source features `x0` and
    destination features `x1`: distance, screened repulsion, and the mask. -/
def blockVal (x0 x1 : Vec F S6x128000 .f32) : Vec F S1x128000 .f32 :=
  k0_pay1 (k0_pay4 (View.ld x0 rIn) (View.ld x1 rIn)) (k0_pay5 (View.ld x0 rIn) (View.ld x1 rIn))
    (k0_pay6 (View.ld x0 rIn)) (k0_pay7 (View.ld x1 rIn))

/-- What the output's staging buffer holds after the body: its one store, which covers the buffer. -/
def out0_2 (x0 x1 : Vec F S6x128000 .f32) : Vec F S1x128000 .f32 :=
  View.canon [⟨rOut, blockVal x0 x1⟩]

/-- The launch theorem's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Frame

end
-- ==== Proof.KBFrame.lean ====
/-
  The frame run of the idealized kernel program, at any float type.

  @main is six stretches of host operations (they build the per-atom feature table and gather its columns into
  the two per-edge feature arrays), one pipelined call over a hundred blocks of 128 000 edges, and nine more host
  operations (the sum of the edge contributions into the molecules).  Here: no host operation writes an argument
  array; the lines after the call touch only unscoped buffers, allocate nothing and write no array of the
  pipeline; the body, run on whole staging buffers holding the two input blocks, leaves the inputs as they were
  and the output buffer at the block's edge contributions; hence every weakly fair execution of @main terminates
  without fault, with every array of the call at what the proof data computes and every other buffer as the host
  operations leave it.  The frame claim (the six argument arrays end as launched) and the value of the result
  buffer are read off that run.
-/
import proofs.«401051_j18562848654089_3_alg».proof.Proof.Gen.Kernel.Launch
import proofs.«401051_j18562848654089_3_alg».proof.Proof.Gen.Kernel.Skeleton
import proofs.«401051_j18562848654089_3_alg».proof.Proof.Gen.Kernel.Points
import proofs.«401051_j18562848654089_3_alg».proof.Proof.KBData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- No host operation allocates a buffer of unchosen contents. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every stretch before the call touches TensorCore references only. -/
theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub⟩
/-- And allocates nothing. -/
theorem pre_fresh : (pre (F := F)).Forall fun ops => ops.Forall fun op => op.fresh = ∅ :=
  ⟨hostOps0_fresh, hostOps0_1_fresh, hostOps0_2_fresh, hostOps0_3_fresh, hostOps0_4_fresh, hostOps0_5_fresh⟩

/-- @main around the call: the host stretches before it, the call, the host operations after it; it reduces to the
    call continued by the later operations, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The operations after the call touch the pipeline's arrays and the bypassing buffers only: each one's buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is none of the three. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays through the host operations -/

set_option maxHeartbeats 1000000 in
/-- No host operation before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg4`: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation before the call writes `main_arg5`: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 1000000 in
/-- No host operation after the call writes `main_arg0`, and it is no array of the pipeline: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host operation after the call writes `main_arg1`, and it is no array of the pipeline: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host operation after the call writes `main_arg2`, and it is no array of the pipeline: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host operation after the call writes `main_arg3`, and it is no array of the pipeline: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
/-- No host operation after the call writes `main_arg4`, and it is no array of the pipeline: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 1000000 in
/-- No host operation after the call writes `main_arg5`, and it is no array of the pipeline: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The input windows' blocks -/

/-- Input window 0's current staging buffer holds its block at every point, fetched there or not, for any proof data
    whose array is the call-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the frame run's -/

/-- The six argument arrays are staged by no window, so the frame run's post reads each at what the operations after
    the call leave there, which is what was launched. -/
theorem frame_of
    (h : θ_run defs (onTc (τ := τ) (main (F := F))) (s₀ m ρ) (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩) h

/-! ## The body's triple -/

/-- The body's one store is of the whole output block, so it covers the buffer. -/
theorem cover0_2 (p0 : Vec F S1x128000 .f32) (y : S1x128000.Idx) :
    ∃ pc ∈ ([⟨rOut, p0⟩] : List (View.Piece (Elt F) S1x128000 .f32)), y ∈ pc.1.set :=
  View.cover_of_tiled [⟨rOut, p0⟩] S1x128000.size (by rfl) y

set_option maxHeartbeats 1000000 in
/-- The kernel body on whole staging buffers, the inputs' at contents `x0`, `x1` and the output's at anything, runs to
    the continuation holding the inputs' as they were and the output's at `out0_2 x0 x1`: it loads both input blocks
    whole, computes, loads the output block and stores the whole of it. -/
theorem sound_kernel (c : Dev nD) (E : Set ℕ) (i : grid0.Coords)
    (arg1 : Memref sig .tc .vmem S6x128000 .f32) (harg1 : arg1.IsWhole)
    (arg2 : Memref sig .tc .vmem S6x128000 .f32) (harg2 : arg2.IsWhole)
    (arg3 : Memref sig .tc .vmem S1x128000 .f32) (harg3 : arg3.IsWhole)
    (x0 x1 : Vec F S6x128000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__repulsion_kernel i arg1 harg1 arg2 harg2 arg3 harg3) K := by
  simp only [cc0__repulsion_kernel_eq_skeleton]; unfold cc0__repulsion_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The body obligation, at a generic point -/

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run, the frame and the result buffer -/

set_option backward.isDefEq.respectTransparency.types false in
/-- At the compiled mesh, for any values, from any memory with zero counters: every weakly fair execution of @main on the
    TensorCores terminates, and every final state has every array of the pipeline at what the proof data computes and
    every other unscoped buffer as the operations after the call leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates without fault and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (run_main m ρ)

/-- The run read at the result buffer as well: it is no array of the pipeline and is not scoped, so it ends at what
    the operations after the call compute from the call's output. -/
theorem run_value : θ_run defs (onTc (τ := τ) (main (F := F))) ⟨m, fun _ => 0, ρ⟩ (fun r => ∀ c : Dev nD,
      r.2.mem ((c.tc : Thread nD τ).loc main_v45) = Pipeline.afterTail₀ cfgs (dats m) 0 (V0 m) [hostOps1] c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v45 (Pipeline.mem_restRefs_of main_v45 (by decide) (by decide)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c),
     ((h c).2 main_arg5 (Pipeline.mem_restRefs_of main_arg5 (by decide) (by decide))).trans (W_main_arg5 m c)⟩) (run_main m ρ)

/-- info: 'Cert.Kernel.Frame.run_value' depends on axioms: [propext, Classical.choice, Quot.sound] -/
#guard_msgs in #print axioms run_value

end Cert.Kernel.Frame

end
-- ==== Proof.LibNary.lean ====
/-
  The result of an operation of six operands, each operand's contents read at its own buffer.

  The library states what an operation over a FAMILY of operand buffers leaves in its result buffer with the
  operands' contents under a binder (operand `k`'s buffer is the family applied to `k`).  For a literal family
  of six buffers (a concatenation of six pieces, say) the same fact with the six contents listed one by one lets a
  computation of the buffers' contents go on through each of them.
-/
import Idealize.ShloMosaic.Lib.StableHlo.Run

namespace Cert.Lib

open Idealize.ShloMosaic Idealize.ShloMosaic.StableHlo

variable {τ : Topo} {sig : RefSig} {Val : EltTy → Type}

/-- An operation over the six buffers `x0 … x5` leaves in its result buffer its function applied to the six
    buffers' contents, listed in order. -/
theorem nary6_result {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

end Cert.Lib
-- ==== Proof.LibGather.lean ====
/-
  Two takes from a table of two axes, read at an index.

  A gather whose start indices are an [n × 1] column of positions, which start-indexes and collapses ONE axis of a
  two-axis table and keeps the other whole, copies for each position a whole column (or a whole row) of the
  table.  Read at one element: the result at (r, p) — or (p, k) — is the table at the same coordinate on the kept
  axis and, on the taken axis, at position p's start index read as a signed integer and brought into the axis
  from either side (a negative index reads entry 0, one past the end reads the last entry).
-/
import Idealize.ShloMosaic.Lib.StableHlo.Predicate
import Idealize.ShloMosaic.Lib.ValueIdx

namespace Cert.Lib

open Idealize.ShloMosaic Idealize.ShloMosaic.ValueIdx Idealize.ShloMosaic.StableHlo.Predicate

/-- A list that is the one-element list [b] has b as its every entry. -/
private theorem getElem_of_eq_singleton {β : Type} (l : List β) (b : β) (e : l = [b]) (i : Nat) (h : i < l.length) :
    l[i]'h = b := by
  subst e
  have hi : i = 0 := by simpa using h
  subst hi; rfl

/-- An axis of a two-axis shape is the first or the second. -/
private theorem fin2_cases (a : Fin 2) : a = 0 ∨ a = 1 := by
  match a with
  | ⟨0, _⟩ => exact Or.inl rfl
  | ⟨1, _⟩ => exact Or.inr rfl

/-- Columns of an [R × N] table taken at n positions: the result is [R × n]. -/
theorem gather_cols {α : Type} {R N n w : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) (hN : 0 < N) :
    Host.gather d x idx (ix2 r p) = x (ix2 r ⟨min (idx (ixP p)).toInt.toNat (N - 1), by omega⟩) := by
  unfold Host.gather
  congr 1
  funext a
  apply Fin.ext
  have hb : ∀ a, a ∉ d.operandBatchingDims := fun a => by rw [hob]; exact List.not_mem_nil
  have hsk : d.sKept = [0] := by
    show (⟨2, ![R, N]⟩ : Shape).kept (d.collapsedSliceDims ++ d.operandBatchingDims) = [0]
    rw [hcoll, hob]; rfl
  have hbd : d.batchDims = [1] := by
    show (⟨2, ![R, n]⟩ : Shape).kept d.offsetDims = [1]
    rw [hoff]; rfl
  -- the operand index, axis by axis
  rcases fin2_cases a with rfl | rfl
  · -- the kept axis: no start (it is not in the start index map), the offset coordinate is the result's on its one offset axis
    have hm : (0 : Fin 2) ∉ d.startIndexMap := by rw [hsim]; simp
    have hk : (0 : Fin 2) ∈ d.sKept := by rw [hsk]; exact List.mem_singleton.mpr rfl
    simp only [GatherDims.operandIdx, GatherDims.batchCoord_eq_zero _ _ _ (hb _), GatherDims.start, dif_neg hm,
      Nat.add_zero, Nat.zero_add]
    unfold GatherDims.offCoord
    rw [dif_pos hk]
    rw [getElem_of_eq_singleton _ _ hoff]
    rfl
  · -- the taken axis: collapsed (slice size 1, no offset), its start the clamped start index read at (p, 0)
    have hm : (1 : Fin 2) ∈ d.startIndexMap := by rw [hsim]; exact List.mem_singleton.mpr rfl
    have hk : (1 : Fin 2) ∉ d.sKept := by rw [hsk]; simp
    have hsl : d.sliceSizes 1 = 1 := d.slice_collapsed 1 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 1) = min (idx (ixP p)).toInt.toNat (N - 1)
    rw [hsl]
    congr 3
    congr 1
    funext b
    -- the start-indices index: the result's batch coordinate p on axis 0, component 0 of the index vector on axis 1
    rcases fin2_cases b with rfl | rfl
    · unfold GatherDims.siIdx
      rw [dif_neg (by rw [hivd]; simp)]
      unfold GatherDims.siCoord
      apply Fin.ext
      simp only [Fin.val_cast]
      rw [getElem_of_eq_singleton _ _ hbd]
      rfl
    · unfold GatherDims.siIdx
      rw [dif_pos (by rw [hivd]; rfl)]
      apply Fin.ext
      show List.idxOf (1 : Fin 2) d.startIndexMap = 0
      rw [hsim]; simp

/-- Rows of an [N × C] table taken at n positions: the result is [n × C]. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ixP p)).toInt.toNat (N - 1), by omega⟩ k) := by
  unfold Host.gather
  congr 1
  funext a
  apply Fin.ext
  have hb : ∀ a, a ∉ d.operandBatchingDims := fun a => by rw [hob]; exact List.not_mem_nil
  have hsk : d.sKept = [1] := by
    show (⟨2, ![N, C]⟩ : Shape).kept (d.collapsedSliceDims ++ d.operandBatchingDims) = [1]
    rw [hcoll, hob]; rfl
  have hbd : d.batchDims = [0] := by
    show (⟨2, ![n, C]⟩ : Shape).kept d.offsetDims = [0]
    rw [hoff]; rfl
  -- the operand index, axis by axis
  rcases fin2_cases a with rfl | rfl
  · -- the taken axis: collapsed (slice size 1, no offset), its start the clamped start index read at (p, 0)
    have hm : (0 : Fin 2) ∈ d.startIndexMap := by rw [hsim]; exact List.mem_singleton.mpr rfl
    have hk : (0 : Fin 2) ∉ d.sKept := by rw [hsk]; simp
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    -- the start-indices index: the result's batch coordinate p on axis 0, component 0 of the index vector on axis 1
    rcases fin2_cases b with rfl | rfl
    · unfold GatherDims.siIdx
      rw [dif_neg (by rw [hivd]; simp)]
      unfold GatherDims.siCoord
      apply Fin.ext
      simp only [Fin.val_cast]
      rw [getElem_of_eq_singleton _ _ hbd]
      rfl
    · unfold GatherDims.siIdx
      rw [dif_pos (by rw [hivd]; rfl)]
      apply Fin.ext
      show List.idxOf (0 : Fin 2) d.startIndexMap = 0
      rw [hsim]; simp
  · -- the kept axis: no start (it is not in the start index map), the offset coordinate is the result's on its one offset axis
    have hm : (1 : Fin 2) ∉ d.startIndexMap := by rw [hsim]; simp
    have hk : (1 : Fin 2) ∈ d.sKept := by rw [hsk]; exact List.mem_singleton.mpr rfl
    simp only [GatherDims.operandIdx, GatherDims.batchCoord_eq_zero _ _ _ (hb _), GatherDims.start, dif_neg hm,
      Nat.add_zero, Nat.zero_add]
    unfold GatherDims.offCoord
    rw [dif_pos hk]
    rw [getElem_of_eq_singleton _ _ hoff]
    rfl

end Cert.Lib
-- ==== Proof.EdgeSpec.lean ====
/-
  The pair interaction of one edge, as scalar functions on the extended reals.

  An edge (s, d) of the molecular graph contributes a screened repulsion between its two atoms.  Each atom
  carries six numbers: its position (x, y, z), a screening parameter a, an effective charge q, and the index b
  of the molecule it belongs to.  With r the distance of the two atoms (never below a small floor), and
  ρ = r · c the same distance in atomic units, the contribution is

      q_s · q_d · exp (−√(a_s · a_d) · ρ^{3/2}) / ρ

  when the two atoms lie in one molecule and r is within the cutoff, and zero otherwise.  The per-molecule
  energy is the sum of these over the edges whose source atom lies in the molecule.

  Two spellings of that number are stated here: one that writes ρ^{3/2} as ρ · √ρ, the squared distance as an
  explicit sum of three squares, and compares the molecule indices after turning them into reals; and one that
  writes ρ^{3/2} as a real power, the squared distance as a sum over the three coordinates added to zero, and
  compares the molecule indices as integers.  That they agree (for finite positions) is proved elsewhere.
-/
import Idealize.ShloMosaic.PureOps.Ideal
import Idealize.ShloMosaic.Lib.ValueIdx

noncomputable section

namespace Cert.Edge

open Idealize.ShloMosaic

/-- The smallest distance used: the single-precision number nearest 10⁻⁹. -/
abbrev cMin : EReal := Ideal.ofBits .f32 0x3089705F#32
/-- Ångström to Bohr, in single precision. -/
abbrev cAu : EReal := Ideal.ofBits .f32 0x3FF1E28C#32
/-- The cutoff distance, 3. -/
abbrev cCut : EReal := Ideal.ofBits .f32 0x40400000#32
/-- Zero. -/
abbrev cZero : EReal := Ideal.ofBits .f32 0x00000000#32
/-- The exponent 3/2. -/
abbrev cPow : EReal := Ideal.ofBits .f32 0x3FC00000#32

/-- An index word with Python's reading of a negative index into an axis of length `n`: a negative word has
    `n` added. -/
def wrapIdx (n : BitVec 32) (w : BitVec 32) : BitVec 32 :=
  Scalar.select (IntOp.cmpi .slt w 0#32) (IntOp.addi w n) w

/-- The position in an axis of length `N` that an index word names: the word read as a signed integer,
    brought into the axis from either side. -/
def clampPos (N : Nat) (hN : 0 < N) (w : BitVec 32) : Fin N := ⟨min w.toInt.toNat (N - 1), by omega⟩

/-- The atom an edge-endpoint word names (200000 atoms). -/
def atomOf (w : BitVec 32) : Fin 200000 := clampPos 200000 (by norm_num) (wrapIdx 200000#32 w)
/-- The row of the 11-entry element tables an atomic-number word names. -/
def elemOf (w : BitVec 32) : Fin 11 := clampPos 11 (by norm_num) (wrapIdx 11#32 w)

/-- The contribution of one edge, with ρ^{3/2} written ρ · √ρ, the squared distance as a sum of three squares,
    and the two molecule indices compared as reals `bs`, `bd`. -/
def kerRep (xs ys zs as qs bs xd yd zd ad qd bd : EReal) : EReal :=
  let dx := xs - xd
  let dy := ys - yd
  let dz := zs - zd
  let r := max (Ideal.sqrt ((dx * dx + dy * dy) + dz * dz)) cMin
  let ρ := r * cAu
  let a := Ideal.sqrt (as * ad)
  let q := qs * qd
  let p := ρ * Ideal.sqrt ρ
  let e := Ideal.exp ((cZero - a) * p)
  let v := Ideal.div (q * e) ρ
  Scalar.select (IntOp.andi (Ideal.cmp .oeq bs bd) (Ideal.cmp .ole r cCut)) v cZero

/-- The same contribution with ρ^{3/2} a real power, the squared distance the sum over the three coordinates
    added to zero, and the molecule indices compared as the integers `bs`, `bd`. -/
def refRep (ps pd : Fin 3 → EReal) (as qs ad qd : EReal) (bs bd : BitVec 32) : EReal :=
  let r := max (Ideal.sqrt (cZero + ∑ k : Fin 3, (ps k - pd k) * (ps k - pd k))) cMin
  let ρ := r * cAu
  let a := Ideal.sqrt (as * ad)
  let e := Ideal.exp (-a * Ideal.pow ρ cPow)
  let v := Ideal.div ((qs * qd) * e) ρ
  Scalar.select (IntOp.andi (IntOp.cmpi .eq bs bd) (Ideal.cmp .ole r cCut)) v cZero

/-- The edge-endpoint words lie in the atom axis. -/
def InRange (ei : (⟨2, ![2, 12800000]⟩ : Shape).Idx → BitVec 32) : Prop :=
  ∀ i, 0 ≤ (ei i).toInt ∧ (ei i).toInt < 200000

/-- Every position coordinate is a real number. -/
def FinitePos (pos : (⟨2, ![200000, 3]⟩ : Shape).Idx → EReal) : Prop :=
  ∀ i, ∃ r : ℝ, pos i = (r : EReal)

end Cert.Edge

end
-- ==== Proof.EdgeMath.lean ====
/-
  The two spellings of an edge's contribution agree, and the small facts about index words beside it.
-/
import proofs.«401051_j18562848654089_3_alg».proof.Proof.EdgeSpec
import Mathlib.Analysis.SpecialFunctions.Pow.Real
import Mathlib.Analysis.SpecialFunctions.Sqrt

noncomputable section

namespace Cert.Edge

open Idealize.ShloMosaic

/-! ### The literals -/

/-- The all-zero pattern denotes zero. -/
theorem cZero_eq : cZero = (0 : EReal) := by
  simp [Ideal.ofBits, Ideal.ieee]

/-- The exponent's pattern denotes 3/2 exactly: sign 0, exponent 127, significand 1.1 in binary. -/
theorem cPow_eq : cPow = (((3 / 2 : ℝ)) : EReal) := by
  simp [Ideal.ofBits, Ideal.ieee, -EReal.coe_mul]
  norm_num

/-- The distance floor is a real number ≥ 0 (a positive normal pattern). -/
theorem cMin_real : ∃ x : ℝ, 0 ≤ x ∧ cMin = (x : EReal) := by
  simp [Ideal.ofBits, Ideal.ieee, -EReal.coe_mul]

/-- The unit conversion factor is a real number ≥ 0 (a positive normal pattern). -/
theorem cAu_real : ∃ x : ℝ, 0 ≤ x ∧ cAu = (x : EReal) := by
  simp [Ideal.ofBits, Ideal.ieee, -EReal.coe_mul]

/-! ### The two scalar identities behind the agreement -/

/-- For a real x ≥ 0, x · √x is x^{3/2}: x^{1 + 1/2} = x¹ · x^{1/2}. -/
theorem mul_sqrt_eq_pow {x : ℝ} (hx : 0 ≤ x) :
    (x : EReal) * Ideal.sqrt (x : EReal) = Ideal.pow (x : EReal) cPow := by
  rw [cPow_eq, Ideal.pow_coe_coe, Ideal.sqrt_coe, if_neg (not_lt.2 hx), ← EReal.coe_mul]
  congr 1
  show x * Real.sqrt x = x ^ ((3 / 2 : ℝ))
  have h : (3 / 2 : ℝ) = 1 + 1 / 2 := by norm_num
  rw [h, Real.rpow_add' hx (by norm_num), Real.rpow_one, Real.sqrt_eq_rpow]

/-- Two signed words denote equal reals exactly when they are equal words: the integers embed in the reals, the reals
    in the extended reals, and a word is determined by its signed value. -/
theorem cmp_oeq_toInt (bs bd : BitVec 32) :
    Ideal.cmp .oeq (((bs.toInt : ℝ)) : EReal) (((bd.toInt : ℝ)) : EReal) = IntOp.cmpi .eq bs bd := by
  unfold Ideal.cmp IntOp.cmpi
  congr 1
  rw [Bool.eq_iff_iff, decide_eq_true_iff, beq_iff_eq, EReal.coe_eq_coe_iff, Int.cast_inj, BitVec.toInt_inj]

/-! ### The agreement -/

/-- For real coordinates the two spellings of an edge's contribution are one number: ρ · √ρ is ρ^{3/2} for ρ ≥ 0,
    a sum of three squares is the sum over the three coordinates added to zero, 0 − a is −a, and two integers are
    equal exactly when the reals they denote are. -/
theorem kerRep_eq_refRep (ps pd : Fin 3 → ℝ) (as qs ad qd : EReal) (bs bd : BitVec 32) :
    kerRep ((ps 0 : ℝ) : EReal) ((ps 1 : ℝ) : EReal) ((ps 2 : ℝ) : EReal) as qs (((bs.toInt : ℝ)) : EReal)
        ((pd 0 : ℝ) : EReal) ((pd 1 : ℝ) : EReal) ((pd 2 : ℝ) : EReal) ad qd (((bd.toInt : ℝ)) : EReal)
      = refRep (fun k => ((ps k : ℝ) : EReal)) (fun k => ((pd k : ℝ) : EReal)) as qs ad qd bs bd := by
  obtain ⟨m, hm, hcm⟩ := cMin_real
  obtain ⟨c, hc, hcc⟩ := cAu_real
  -- the squared distance D is a real number ≥ 0, in either spelling
  have hD0 : 0 ≤ (ps 0 - pd 0) * (ps 0 - pd 0) + (ps 1 - pd 1) * (ps 1 - pd 1) + (ps 2 - pd 2) * (ps 2 - pd 2) :=
    add_nonneg (add_nonneg (mul_self_nonneg _) (mul_self_nonneg _)) (mul_self_nonneg _)
  generalize hD : (ps 0 - pd 0) * (ps 0 - pd 0) + (ps 1 - pd 1) * (ps 1 - pd 1) + (ps 2 - pd 2) * (ps 2 - pd 2) = D
    at hD0
  have hsq : ((((ps 0 : ℝ) : EReal) - ((pd 0 : ℝ) : EReal)) * (((ps 0 : ℝ) : EReal) - ((pd 0 : ℝ) : EReal))
        + (((ps 1 : ℝ) : EReal) - ((pd 1 : ℝ) : EReal)) * (((ps 1 : ℝ) : EReal) - ((pd 1 : ℝ) : EReal)))
        + (((ps 2 : ℝ) : EReal) - ((pd 2 : ℝ) : EReal)) * (((ps 2 : ℝ) : EReal) - ((pd 2 : ℝ) : EReal))
      = ((D : ℝ) : EReal) := by
    rw [← hD]
    simp only [← EReal.coe_sub, ← EReal.coe_mul, ← EReal.coe_add]
  have hsum : cZero + ∑ k : Fin 3, (((ps k : ℝ) : EReal) - ((pd k : ℝ) : EReal)) * (((ps k : ℝ) : EReal) - ((pd k : ℝ) : EReal))
      = ((D : ℝ) : EReal) := by
    rw [cZero_eq, zero_add, Fin.sum_univ_three, hsq]
  -- the distance with its floor, max (√D) m, and the same in atomic units, are reals ≥ 0
  have hr : max (Ideal.sqrt ((D : ℝ) : EReal)) cMin = ((max (Real.sqrt D) m : ℝ) : EReal) := by
    rw [Ideal.sqrt_coe, if_neg (not_lt.2 hD0), hcm]
    exact (EReal.coe_strictMono.monotone.map_max).symm
  have hx : 0 ≤ max (Real.sqrt D) m * c := mul_nonneg (le_max_of_le_right hm) hc
  unfold kerRep refRep
  simp only []
  rw [hsq, hsum, hr, hcc, ← EReal.coe_mul]
  generalize max (Real.sqrt D) m * c = x at hx
  -- ρ · √ρ = ρ^{3/2}, the index comparison, and 0 − a = −a; the rest of the two expressions is one term
  rw [mul_sqrt_eq_pow hx, cmp_oeq_toInt, cZero_eq, zero_sub]

/-- An integer turned into a real, rounded to the nearest integer and turned back is itself. -/
theorem fptosi_roundeven_sitofp (b : BitVec 32) :
    Ideal.fptosi 32 (Ideal.liftRound Ideal.roundHalfEven (((b.toInt : ℝ)) : EReal)) = b := by
  -- an integer is its own floor, so its distance to the floor is 0 < 1/2 and rounding keeps it
  have hr : Ideal.roundHalfEven ((b.toInt : ℝ)) = b.toInt := by
    unfold Ideal.roundHalfEven
    simp
  rw [Ideal.liftRound_coe, hr]
  unfold Ideal.fptosi
  rw [Ideal.toIntClamped_coe]
  have h1 := BitVec.toInt_lt (x := b)
  have h2 := BitVec.le_toInt (x := b)
  -- toward zero an integer is itself, and −2³¹ ≤ it < 2³¹, so the clamp does nothing
  have hfl : (if (0 : ℝ) ≤ ((b.toInt : ℤ) : ℝ) then ⌊((b.toInt : ℤ) : ℝ)⌋ else ⌈((b.toInt : ℤ) : ℝ)⌉) = b.toInt := by
    split_ifs <;> simp
  rw [hfl]
  have : max (-((2 ^ (32 - 1) : ℕ) : ℤ)) (min (((2 ^ (32 - 1) : ℕ) : ℤ) - 1) b.toInt) = b.toInt := by
    omega
  rw [this, BitVec.ofInt_toInt]

/-- A non-negative index word is not wrapped. -/
theorem wrapIdx_of_nonneg (n : BitVec 32) {w : BitVec 32} (h : 0 ≤ w.toInt) : wrapIdx n w = w := by
  have hs : w.slt 0#32 = false := by
    simp [BitVec.slt]; omega
  unfold wrapIdx IntOp.cmpi
  simp only [hs]
  exact ValueIdx.select_zero _ _

/-- An index word inside the atom axis passes the two-sided range test. -/
theorem inb_atom {w : BitVec 32} (h0 : 0 ≤ w.toInt) (h1 : w.toInt < 200000) :
    IntOp.andi (IntOp.cmpi .sge (wrapIdx 200000#32 w) 0#32) (IntOp.cmpi .sle (wrapIdx 200000#32 w) 199999#32) = 1#1 := by
  rw [wrapIdx_of_nonneg _ h0]
  have h2 : (0#32).sle w = true := by simp [BitVec.sle]; omega
  have h3 : w.sle 199999#32 = true := by
    have : (199999#32 : BitVec 32).toInt = 199999 := by decide
    simp [BitVec.sle, this]; omega
  unfold IntOp.cmpi IntOp.andi
  simp only [h2, h3]
  decide

/-- An index word inside the atom axis names the atom of its own value. -/
theorem atomOf_val {w : BitVec 32} (h0 : 0 ≤ w.toInt) (h1 : w.toInt < 200000) :
    ((atomOf w).val : Int) = w.toInt := by
  unfold atomOf clampPos
  rw [wrapIdx_of_nonneg _ h0]
  simp only
  omega

end Cert.Edge

end
-- ==== Proof.KIPrefix.lean ====
/-
  What the host's operations before the pipelined call leave in the three buffers the rest of the program reads.

  Before the call the host builds a table of six numbers per atom (the three coordinates, the two parameters of the
  atom's element looked up in two 11-entry tables at its atomic number, and its molecule index turned into a float),
  takes the table's columns at the edges' source words and at their destination words (two arrays of six rows by
  12 800 000 edges), and recovers the source atom's molecule index per edge by rounding row 5 of the first array to
  the nearest integer.  A take reads Python's way: a negative word has the axis length added, the position is then
  brought into the axis from either side, and a word that was outside the axis gives a fill value instead.

  First the three buffers' contents are written as functions of the six argument arrays, at every float instance:
  the operations run stretch by stretch, and each stretch's result is the stretch's function of what the stretch
  before left.  Then the functions are read at an index at the ideal instance, for edge words that lie in the atom
  axis: there no wrap happens, the range test passes, the fill value is never taken, and an integer turned into a
  real, rounded and turned back is itself.  So the source (destination) features of edge `e` are row by row the
  feature table `feat` at the atom the edge's source (destination) word names, and the recorded molecule index is the
  source atom's.
-/
import proofs.«401051_j18562848654089_3_alg».proof.Proof.Gen.KernelIdeal.Launch
import proofs.«401051_j18562848654089_3_alg».proof.Proof.Gen.KernelIdeal.Skeleton
import proofs.«401051_j18562848654089_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.StableHlo.Predicate
import Idealize.ShloMosaic.Lib.Ring
import Idealize.ShloMosaic.Lib.Tactic
import proofs.«401051_j18562848654089_3_alg».proof.Proof.KIData
import proofs.«401051_j18562848654089_3_alg».proof.Proof.LibNary
import proofs.«401051_j18562848654089_3_alg».proof.Proof.LibGather
import proofs.«401051_j18562848654089_3_alg».proof.Proof.EdgeSpec
import proofs.«401051_j18562848654089_3_alg».proof.Proof.EdgeMath

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Idealize.ShloMosaic.StableHlo

/-! ## The arrays the host builds, as functions of the arguments (at every float instance) -/

section Terms
variable {F : FTy → Type} [FloatOps F]

/-- Row `0` of the edge table as a vector: the edges' source words. -/
def srcWords (a4 : IVec S2x12800000 32) : IVec S12800000 32 :=
  shapeCast S12800000 (extractStridedSlice S1x12800000 ![0, 0] a4 slices_S2x12800000_S1x12800000_0_0) shapeCasts_S1x12800000_S12800000
/-- Row `1` of the edge table as a vector: the edges' destination words. -/
def dstWords (a4 : IVec S2x12800000 32) : IVec S12800000 32 :=
  shapeCast S12800000 (extractStridedSlice S1x12800000 ![1, 0] a4 slices_S2x12800000_S1x12800000_1_0) shapeCasts_S1x12800000_S12800000

/-- The atomic-number words with a negative one moved up by the table length 11, as a column. -/
def elemCol (a3 : IVec S200000 32) : IVec S200000x1 32 :=
  broadcastInDim S200000x1 ![0] bcast_S200000_S200000x1_0
    (select (cmpi .slt a3 (broadcastInDim S200000 ![] bcast_S_S200000 (constantI S_ 32 0#32)))
      (addi a3 (broadcastInDim S200000 ![] bcast_S_S200000 (constantI S_ 32 11#32))) a3)

/-- Column 0 (1, 2) of the positions as a vector over the atoms. -/
def posCol0 (a0 : FVec F S200000x3 .f32) : FVec F S200000 .f32 :=
  shapeCast S200000 (extractStridedSlice S200000x1 ![0, 0] a0 slices_S200000x3_S200000x1_0_0) shapeCasts_S200000x1_S200000
@[inherit_doc posCol0]
def posCol1 (a0 : FVec F S200000x3 .f32) : FVec F S200000 .f32 :=
  shapeCast S200000 (extractStridedSlice S200000x1 ![0, 1] a0 slices_S200000x3_S200000x1_0_1) shapeCasts_S200000x1_S200000
@[inherit_doc posCol0]
def posCol2 (a0 : FVec F S200000x3 .f32) : FVec F S200000 .f32 :=
  shapeCast S200000 (extractStridedSlice S200000x1 ![0, 2] a0 slices_S200000x3_S200000x1_0_2) shapeCasts_S200000x1_S200000

/-- A vector over the atoms as one row. -/
def asRow {α : Type} (v : S200000.Idx → α) : S1x200000.Idx → α := broadcastInDim S1x200000 ![1] bcast_S200000_S1x200000_1 v

/-- Six rows stacked into one six-row table. -/
def rows6 {α : Type} (r0 r1 r2 r3 r4 r5 : S1x200000.Idx → α) : S6x200000.Idx → α :=
  concatenate S6x200000 0
    [⟨S1x200000, r0⟩, ⟨S1x200000, r1⟩, ⟨S1x200000, r2⟩, ⟨S1x200000, r3⟩, ⟨S1x200000, r4⟩, ⟨S1x200000, r5⟩]
    concatenates_S1x200000_S1x200000_S1x200000_S1x200000_S1x200000_S1x200000_S6x200000_d0

/-- The per-atom feature table: six rows (x, y, z, the two element parameters, the molecule index as a float). -/
def table (a0 : FVec F S200000x3 .f32) (a1 a2 : FVec F S11 .f32) (a3 a5 : IVec S200000 32) : FVec F S6x200000 .f32 :=
  rows6 (asRow (posCol0 a0)) (asRow (posCol1 a0)) (asRow (posCol2 a0))
    (asRow (Host.gather gather_S11_S200000x1_S200000_n_0_n_n_0_1_1 a1 (elemCol a3)))
    (asRow (Host.gather gather_S11_S200000x1_S200000_n_0_n_n_0_1_1 a2 (elemCol a3)))
    (asRow (sitofp .f32 a5))

/-- The edge words with a negative one moved up by the number of atoms, as a column of start positions. -/
def takePos (w : IVec S12800000 32) : IVec S12800000x1 32 :=
  broadcastInDim S12800000x1 ![0] bcast_S12800000_S12800000x1_0
    (select (cmpi .slt w (broadcastInDim S12800000 ![] bcast_S_S12800000 (constantI S_ 32 0#32)))
      (addi w (broadcastInDim S12800000 ![] bcast_S_S12800000 (constantI S_ 32 200000#32))) w)

/-- Per edge: does its start position lie in the atom axis. -/
def takeOk (i : IVec S12800000x1 32) : IVec S12800000 1 :=
  Host.reduce IntOp.andi
    (andi (cmpi .sge i (broadcastInDim S12800000x1 ![] bcast_S_S12800000x1 (constantI S_ 32 0#32)))
      (cmpi .sle i (broadcastInDim S12800000x1 ![0, 1] bcast_S1x1_S12800000x1_0_1
        (broadcastInDim S1x1 ![1] bcast_S1_S1x1_1 (constantI S1 32 199999#32)))))
    (constantI S_ 1 1#1) reducesTo_S12800000x1_S12800000_d1 h_S_

/-- The columns of a six-row table taken at the edges' words: the table's column where the word lies in the axis, a
    fill value elsewhere. -/
def takeCols (tab : FVec F S6x200000 .f32) (w : IVec S12800000 32) : FVec F S6x12800000 .f32 :=
  select (broadcastInDim S6x12800000 ![1] bcast_S12800000_S6x12800000_1 (takeOk (takePos w)))
    (Host.gather gather_S6x200000_S12800000x1_S6x12800000_0_1_n_n_1_1_61 tab (takePos w))
    (broadcastInDim S6x12800000 ![] bcast_S_S6x12800000 (constant S_ .f32 0x7FC00000#32))

/-- The molecule index of each edge's source atom, read back from row 5 of the source features. -/
def molOf (x : FVec F S6x12800000 .f32) : IVec S12800000 32 :=
  fptosi 32 (Host.roundeven (shapeCast S12800000
    (extractStridedSlice S1x12800000 ![5, 0] x slices_S6x12800000_S1x12800000_5_0) shapeCasts_S1x12800000_S12800000))

end Terms

section Casts
variable {Val : EltTy → Type}
/-- Contents moved to a buffer's own type and back are unchanged. -/
theorem ofBuf_toBuf {T : BufTy} (r : Ref sig .tc) (h h' : r.ty = T) (d d' u u') (v : T.Contents Val) :
    (TRef.mk r h d u : TRef sig T).ofBuf ((TRef.mk r h' d' u' : TRef sig T).toBuf v) = v := by
  subst h; rfl
end Casts

/-! ## The stretches one by one: what each leaves, as a function of what it found -/

section Stage0
variable {F : FTy → Type} [FloatOps F]

/-- The concatenation of the six rows leaves in its result the concatenation of what the six row buffers hold. -/
theorem v31_result (hxs hy) (G : Valuation τ sig (Elt F)) :
    (nary (τ := τ) ![main_v25, main_v26, main_v27, main_v28, main_v29, main_v30] main_v31
        (fun u => concatenate S6x200000 0 [⟨S1x200000, u 0⟩, ⟨S1x200000, u 1⟩, ⟨S1x200000, u 2⟩, ⟨S1x200000, u 3⟩, ⟨S1x200000, u 4⟩, ⟨S1x200000, u 5⟩] concatenates_S1x200000_S1x200000_S1x200000_S1x200000_S1x200000_S1x200000_S6x200000_d0) hxs hy).result G
        (no_index (Proc.devRef .tc main_v31))
      = rows6 (G (Proc.devRef .tc main_v25)) (G (Proc.devRef .tc main_v26)) (G (Proc.devRef .tc main_v27))
          (G (Proc.devRef .tc main_v28)) (G (Proc.devRef .tc main_v29)) (G (Proc.devRef .tc main_v30)) := by
  rw [Cert.Lib.nary6_result]; rfl

variable (W : Valuation τ sig (Elt F))

set_option maxHeartbeats 2000000 in
/-- The first stretch leaves the edges' source words as a vector … -/
theorem st0_v1 : (after hostOps0 W (Proc.devRef .tc main_v1) : IVec S12800000 32) = srcWords (W (Proc.devRef .tc main_arg4)) := by
  simp only [hostOps0]
  simp (disch := decide) only [after_cons, after_nil, nullary_result', unary_result', binary_result', ternary_result',
    reshape_result', v31_result, nullary_result_ne', unary_result_ne', binary_result_ne', ternary_result_ne',
    reshape_result_ne', nary_result_ne']
  rfl

set_option maxHeartbeats 2000000 in
/-- … their destination words … -/
theorem st0_v3 : (after hostOps0 W (Proc.devRef .tc main_v3) : IVec S12800000 32) = dstWords (W (Proc.devRef .tc main_arg4)) := by
  simp only [hostOps0]
  simp (disch := decide) only [after_cons, after_nil, nullary_result', unary_result', binary_result', ternary_result',
    reshape_result', v31_result, nullary_result_ne', unary_result_ne', binary_result_ne', ternary_result_ne',
    reshape_result_ne', nary_result_ne']
  rfl

set_option maxHeartbeats 2000000 in
/-- … and the feature table. -/
theorem st0_v31 : (after hostOps0 W (Proc.devRef .tc main_v31) : FVec F S6x200000 .f32)
    = table (W (Proc.devRef .tc main_arg0)) (W (Proc.devRef .tc main_arg1)) (W (Proc.devRef .tc main_arg2))
        (W (Proc.devRef .tc main_arg3)) (W (Proc.devRef .tc main_arg5)) := by
  simp only [hostOps0]
  simp (disch := decide) only [after_cons, after_nil, nullary_result', unary_result', binary_result', ternary_result',
    reshape_result', v31_result, nullary_result_ne', unary_result_ne', binary_result_ne', ternary_result_ne',
    reshape_result_ne', nary_result_ne']
  rfl

end Stage0

section Stages
variable {F : FTy → Type} [FloatOps F]

/-- Reading a buffer's contents at its own type changes nothing: the first take. -/
theorem uncast_take_src (A : FVec F S6x12800000 .f32) (B : FVec F S6x200000 .f32) (C : IVec S12800000 32)
    (h : (TRef.of main_v32 : TRef sig ⟨S6x12800000, .f32⟩).ofBuf (Val := Elt F) A
      = takeCols ((TRef.of main_v31 : TRef sig ⟨S6x200000, .f32⟩).ofBuf (Val := Elt F) B)
          ((TRef.of main_v1 : TRef sig ⟨S12800000, .i32⟩).ofBuf (Val := Elt F) C)) :
    A = takeCols B C := h
/-- The same for the second take. -/
theorem uncast_take_dst (A : FVec F S6x12800000 .f32) (B : FVec F S6x200000 .f32) (C : IVec S12800000 32)
    (h : (TRef.of main_v33 : TRef sig ⟨S6x12800000, .f32⟩).ofBuf (Val := Elt F) A
      = takeCols ((TRef.of main_v31 : TRef sig ⟨S6x200000, .f32⟩).ofBuf (Val := Elt F) B)
          ((TRef.of main_v3 : TRef sig ⟨S12800000, .i32⟩).ofBuf (Val := Elt F) C)) :
    A = takeCols B C := h

variable (W : Valuation τ sig (Elt F))

set_option maxHeartbeats 2000000 in
/-- The first take's result as a function of the table and the words it is given, each read at its buffer's type. -/
theorem st1_key :
    (TRef.of main_v32 : TRef sig ⟨S6x12800000, .f32⟩).ofBuf (after hostOps0_1 W (Proc.devRef .tc main_v32))
      = takeCols ((TRef.of main_v31 : TRef sig ⟨S6x200000, .f32⟩).ofBuf (W (Proc.devRef .tc main_v31)))
          ((TRef.of main_v1 : TRef sig ⟨S12800000, .i32⟩).ofBuf (W (Proc.devRef .tc main_v1))) := by
  simp only [hostOps0_1]
  after_results_simp
  simp only [ofBuf_toBuf]
  rfl

/-- The first take writes the source features: the table's columns at the source words. -/
theorem st1_v32 : (after hostOps0_1 W (Proc.devRef .tc main_v32) : FVec F S6x12800000 .f32)
    = takeCols (W (Proc.devRef .tc main_v31)) (W (Proc.devRef .tc main_v1)) :=
  uncast_take_src _ _ _ (st1_key W)

set_option maxHeartbeats 2000000 in
/-- The first take leaves the table … -/
theorem st1_v31 : after hostOps0_1 W (Proc.devRef .tc main_v31) = W (Proc.devRef .tc main_v31) := by
  simp only [hostOps0_1]
  after_results_simp

set_option maxHeartbeats 2000000 in
/-- … and the destination words as they were. -/
theorem st1_v3 : after hostOps0_1 W (Proc.devRef .tc main_v3) = W (Proc.devRef .tc main_v3) := by
  simp only [hostOps0_1]
  after_results_simp

set_option maxHeartbeats 2000000 in
/-- The second take's result, likewise. -/
theorem st2_key :
    (TRef.of main_v33 : TRef sig ⟨S6x12800000, .f32⟩).ofBuf (after hostOps0_2 W (Proc.devRef .tc main_v33))
      = takeCols ((TRef.of main_v31 : TRef sig ⟨S6x200000, .f32⟩).ofBuf (W (Proc.devRef .tc main_v31)))
          ((TRef.of main_v3 : TRef sig ⟨S12800000, .i32⟩).ofBuf (W (Proc.devRef .tc main_v3))) := by
  simp only [hostOps0_2]
  after_results_simp
  simp only [ofBuf_toBuf]
  rfl

/-- The second take writes the destination features. -/
theorem st2_v33 : (after hostOps0_2 W (Proc.devRef .tc main_v33) : FVec F S6x12800000 .f32)
    = takeCols (W (Proc.devRef .tc main_v31)) (W (Proc.devRef .tc main_v3)) :=
  uncast_take_dst _ _ _ (st2_key W)

set_option maxHeartbeats 2000000 in
/-- The second take leaves the source features as they were. -/
theorem st2_v32 : after hostOps0_2 W (Proc.devRef .tc main_v32) = W (Proc.devRef .tc main_v32) := by
  simp only [hostOps0_2]
  after_results_simp

/-- The third stretch reads row 5 of the source features as a vector … -/
theorem st3_v35 : (after hostOps0_3 W (Proc.devRef .tc main_v35) : FVec F S12800000 .f32)
    = shapeCast S12800000 (extractStridedSlice S1x12800000 ![5, 0] (W (Proc.devRef .tc main_v32) : FVec F S6x12800000 .f32)
        slices_S6x12800000_S1x12800000_5_0) shapeCasts_S1x12800000_S12800000 := by
  simp only [hostOps0_3]; after_results; rfl
/-- … and leaves the source features … -/
theorem st3_v32 : after hostOps0_3 W (Proc.devRef .tc main_v32) = W (Proc.devRef .tc main_v32) := by
  simp only [hostOps0_3]; after_results
/-- … and the destination features as they were. -/
theorem st3_v33 : after hostOps0_3 W (Proc.devRef .tc main_v33) = W (Proc.devRef .tc main_v33) := by
  simp only [hostOps0_3]; after_results

/-- The fourth stretch rounds that vector to the nearest integers … -/
theorem st4_v36 : (after hostOps0_4 W (Proc.devRef .tc main_v36) : FVec F S12800000 .f32)
    = Host.roundeven (W (Proc.devRef .tc main_v35) : FVec F S12800000 .f32) := by
  simp only [hostOps0_4]; after_results; rfl
/-- … and leaves the source features … -/
theorem st4_v32 : after hostOps0_4 W (Proc.devRef .tc main_v32) = W (Proc.devRef .tc main_v32) := by
  simp only [hostOps0_4]; after_results
/-- … and the destination features as they were. -/
theorem st4_v33 : after hostOps0_4 W (Proc.devRef .tc main_v33) = W (Proc.devRef .tc main_v33) := by
  simp only [hostOps0_4]; after_results

/-- The fifth stretch turns the rounded vector into words … -/
theorem st5_v37 : (after hostOps0_5 W (Proc.devRef .tc main_v37) : IVec S12800000 32)
    = fptosi 32 (W (Proc.devRef .tc main_v36) : FVec F S12800000 .f32) := by
  simp only [hostOps0_5]; after_results
/-- … and leaves the source features … -/
theorem st5_v32 : after hostOps0_5 W (Proc.devRef .tc main_v32) = W (Proc.devRef .tc main_v32) := by
  simp only [hostOps0_5]; after_results
/-- … and the destination features as they were. -/
theorem st5_v33 : after hostOps0_5 W (Proc.devRef .tc main_v33) = W (Proc.devRef .tc main_v33) := by
  simp only [hostOps0_5]; after_results

end Stages

/-! ## The arrays read at an index -/

section Reads
variable {F : FTy → Type} [FloatOps F]

/-- The source word of edge `e` is the edge table's entry (0, e). -/
theorem srcWords_apply (a4 : IVec S2x12800000 32) (e : Fin 12800000) : srcWords a4 (ix1 e) = a4 (ix2 0 e) := by
  unfold srcWords
  refine (shapeCast_apply _ _ (ix1 e) (ix2 (0 : Fin 1) e) ?_).trans ?_
  · rw [Shape.rowMajor_val_two, Shape.rowMajor_val_one]; show 0 * 12800000 + e.val = e.val; omega
  · exact extractStridedSlice_apply _ _ _ (ix2 (0 : Fin 1) e) (ix2 (0 : Fin 2) e)
      (fun a => match a with | ⟨0, _⟩ => rfl | ⟨1, _⟩ => (Nat.zero_add _).symm)

/-- The destination word of edge `e` is the edge table's entry (1, e). -/
theorem dstWords_apply (a4 : IVec S2x12800000 32) (e : Fin 12800000) : dstWords a4 (ix1 e) = a4 (ix2 1 e) := by
  unfold dstWords
  refine (shapeCast_apply _ _ (ix1 e) (ix2 (0 : Fin 1) e) ?_).trans ?_
  · rw [Shape.rowMajor_val_two, Shape.rowMajor_val_one]; show 0 * 12800000 + e.val = e.val; omega
  · exact extractStridedSlice_apply _ _ _ (ix2 (0 : Fin 1) e) (ix2 (1 : Fin 2) e)
      (fun a => match a with | ⟨0, _⟩ => rfl | ⟨1, _⟩ => (Nat.zero_add _).symm)

/-- Column 0 (1, 2) of the positions at atom `a` is the positions' entry (a, 0) ((a, 1), (a, 2)). -/
theorem posCol0_apply (a0 : FVec F S200000x3 .f32) (a : Fin 200000) : posCol0 a0 (ix1 a) = a0 (ix2 a 0) := by
  unfold posCol0
  refine (shapeCast_apply _ _ (ix1 a) (ix2 a (0 : Fin 1)) ?_).trans ?_
  · rw [Shape.rowMajor_val_two, Shape.rowMajor_val_one]; show a.val * 1 + 0 = a.val; omega
  · exact extractStridedSlice_apply _ _ _ (ix2 a (0 : Fin 1)) (ix2 a (0 : Fin 3))
      (fun b => match b with | ⟨0, _⟩ => (Nat.zero_add _).symm | ⟨1, _⟩ => rfl)

@[inherit_doc posCol0_apply]
theorem posCol1_apply (a0 : FVec F S200000x3 .f32) (a : Fin 200000) : posCol1 a0 (ix1 a) = a0 (ix2 a 1) := by
  unfold posCol1
  refine (shapeCast_apply _ _ (ix1 a) (ix2 a (0 : Fin 1)) ?_).trans ?_
  · rw [Shape.rowMajor_val_two, Shape.rowMajor_val_one]; show a.val * 1 + 0 = a.val; omega
  · exact extractStridedSlice_apply _ _ _ (ix2 a (0 : Fin 1)) (ix2 a (1 : Fin 3))
      (fun b => match b with | ⟨0, _⟩ => (Nat.zero_add _).symm | ⟨1, _⟩ => rfl)

@[inherit_doc posCol0_apply]
theorem posCol2_apply (a0 : FVec F S200000x3 .f32) (a : Fin 200000) : posCol2 a0 (ix1 a) = a0 (ix2 a 2) := by
  unfold posCol2
  refine (shapeCast_apply _ _ (ix1 a) (ix2 a (0 : Fin 1)) ?_).trans ?_
  · rw [Shape.rowMajor_val_two, Shape.rowMajor_val_one]; show a.val * 1 + 0 = a.val; omega
  · exact extractStridedSlice_apply _ _ _ (ix2 a (0 : Fin 1)) (ix2 a (2 : Fin 3))
      (fun b => match b with | ⟨0, _⟩ => (Nat.zero_add _).symm | ⟨1, _⟩ => rfl)

/-- A vector laid out as one row reads, at (0, a), the vector at `a`. -/
theorem asRow_apply {α : Type} (v : S200000.Idx → α) (a : Fin 200000) : asRow v (ix2 (0 : Fin 1) a) = v (ix1 a) := by
  unfold asRow
  exact broadcastInDim_apply _ _ _ (ix2 (0 : Fin 1) a) (ix1 a) (fun b => match b with | ⟨0, _⟩ => rfl)

/-- The column of element positions read at an atom: its atomic-number word, a negative one moved up by 11. -/
theorem elemCol_apply (a3 : IVec S200000 32) (a : Fin 200000) :
    elemCol a3 (StableHlo.Predicate.ixP a) = Cert.Edge.wrapIdx 11#32 (a3 (ix1 a)) := by
  unfold elemCol
  exact broadcastInDim_apply _ _ _ (StableHlo.Predicate.ixP a) (ix1 a) (fun b => match b with | ⟨0, _⟩ => rfl)

/-- The two spellings of a rank-1 index from its coordinate agree. -/
theorem ofFin_eq_ix1 {n : Nat} (k : Fin n) : Shape.Idx.ofFin k = ix1 k := by
  funext b; match b with | ⟨0, _⟩ => exact Fin.ext rfl

/-- An element table taken at the atoms' atomic numbers. -/
theorem elemTake_apply (t : FVec F S11 .f32) (a3 : IVec S200000 32) (a : Fin 200000) :
    Host.gather gather_S11_S200000x1_S200000_n_0_n_n_0_1_1 t (elemCol a3) (ix1 a) = t (ix1 (Cert.Edge.elemOf (a3 (ix1 a)))) := by
  have h := StableHlo.Predicate.gather_take gather_S11_S200000x1_S200000_n_0_n_n_0_1_1 rfl rfl rfl rfl t (elemCol a3) a (by norm_num)
  rw [ofFin_eq_ix1, ofFin_eq_ix1] at h
  refine h.trans (congrArg t (congrArg ix1 (Fin.ext ?_)))
  show min (elemCol a3 (StableHlo.Predicate.ixP a)).toInt.toNat (11 - 1) = (Cert.Edge.elemOf (a3 (ix1 a))).val
  rw [elemCol_apply]; rfl

/-- The start positions read at an edge: its word, a negative one moved up by the number of atoms. -/
theorem takePos_apply (w : IVec S12800000 32) (q : S12800000x1.Idx) :
    takePos w q = Cert.Edge.wrapIdx 200000#32 (w (ix1 (q 0))) := by
  unfold takePos
  exact broadcastInDim_apply _ _ _ q (ix1 (q 0)) (fun b => match b with | ⟨0, _⟩ => rfl)

/-- A fold over a one-point range is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- Start positions that all lie in the atom axis pass the range test at every edge. -/
theorem takeOk_eq_one (i : IVec S12800000x1 32)
    (h : ∀ q, IntOp.andi (IntOp.cmpi .sge (i q) 0#32) (IntOp.cmpi .sle (i q) 199999#32) = 1#1) (j : S12800000.Idx) :
    takeOk i j = 1#1 := by
  unfold takeOk
  rw [Host.reduce_eq_fold_single IntOp.andi _ _ reducesTo_S12800000x1_S12800000_d1
    (by decide : S12800000x1.Reduces [1] S12800000) h_S_ j]
  refine (fold_fin_one IntOp.andi _ _).trans ?_
  show IntOp.andi (IntOp.andi (IntOp.cmpi .sge (i _) 0#32) (IntOp.cmpi .sle (i _) 199999#32)) 1#1 = 1#1
  rw [h]; rfl

/-- The take at in-range words is the table's column at the atom the word names. -/
theorem takeCols_apply (tab : FVec F S6x200000 .f32) (w : IVec S12800000 32)
    (hw : ∀ e : Fin 12800000, 0 ≤ (w (ix1 e)).toInt ∧ (w (ix1 e)).toInt < 200000) (r : Fin 6) (e : Fin 12800000) :
    takeCols tab w (ix2 r e) = tab (ix2 r (Cert.Edge.atomOf (w (ix1 e)))) := by
  have hok : ∀ j, takeOk (takePos w) j = 1#1 := fun j => takeOk_eq_one _ (fun q => by
    rw [takePos_apply]; exact Cert.Edge.inb_atom (hw (q 0)).1 (hw (q 0)).2) j
  unfold takeCols
  rw [select_apply, broadcastInDim_apply _ _ _ (ix2 r e) (ix1 e) (fun b => match b with | ⟨0, _⟩ => rfl), hok, select_one]
  refine (Cert.Lib.gather_cols _ rfl rfl rfl rfl rfl tab (takePos w) r e (by norm_num)).trans ?_
  refine congrArg tab (congrArg (ix2 r) (Fin.ext ?_))
  show min (takePos w (StableHlo.Predicate.ixP e)).toInt.toNat (200000 - 1) = (Cert.Edge.atomOf (w (ix1 e))).val
  rw [takePos_apply]; rfl

/-- The molecule index read back at an edge: row 5 of the features, rounded to the nearest integer and turned into a word. -/
theorem molOf_apply (x : FVec F S6x12800000 .f32) (e : Fin 12800000) :
    molOf x (ix1 e) = FloatOps.fptosi 32 (FloatOps.hostUnary .roundeven (x (ix2 5 e))) := by
  have hrow : shapeCast S12800000 (extractStridedSlice S1x12800000 ![5, 0] x slices_S6x12800000_S1x12800000_5_0)
      shapeCasts_S1x12800000_S12800000 (ix1 e) = x (ix2 5 e) := by
    refine (shapeCast_apply _ _ (ix1 e) (ix2 (0 : Fin 1) e) ?_).trans ?_
    · rw [Shape.rowMajor_val_two, Shape.rowMajor_val_one]; show 0 * 12800000 + e.val = e.val; omega
    · exact extractStridedSlice_apply _ _ _ (ix2 (0 : Fin 1) e) (ix2 (5 : Fin 6) e)
        (fun b => match b with | ⟨0, _⟩ => rfl | ⟨1, _⟩ => (Nat.zero_add _).symm)
  unfold molOf
  show FloatOps.fptosi 32 (FloatOps.hostUnary .roundeven (shapeCast S12800000
    (extractStridedSlice S1x12800000 ![5, 0] x slices_S6x12800000_S1x12800000_5_0) shapeCasts_S1x12800000_S12800000 (ix1 e))) = _
  rw [hrow]

end Reads

/-! ## What the three buffers hold when the call is entered -/

section Buffers
variable {F : FTy → Type} [FloatOps F]
variable (m : (ℓ : Loc nD τ sig) → Buf (Elt F) ℓ) (c : Dev nD)

/-- The host's stretches before the call run one after the other. -/
theorem V0_eq :
    StableHlo.after (List.flatten (pre (F := F))) (fun b => m (c, b))
      = after hostOps0_5 (after hostOps0_4 (after hostOps0_3 (after hostOps0_2 (after hostOps0_1
          (after hostOps0 (fun b => m (c, b))))))) := by
  simp only [List.flatten_cons, List.flatten_nil, List.append_nil, after_append]

/-- The source features: the feature table's columns at the edges' source words. -/
theorem V_v32_eq : (V m c main_v32 : FVec F S6x12800000 .f32)
    = takeCols (table (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5)))
        (srcWords (m ((c.tc : Thread nD τ).loc main_arg4))) := by
  show StableHlo.after (List.flatten (pre (F := F))) (fun b => m (c, b)) (Proc.devRef .tc main_v32) = _
  rw [V0_eq, st5_v32, st4_v32, st3_v32, st2_v32, st1_v32, st0_v31, st0_v1]

/-- The destination features: the same table's columns at the edges' destination words. -/
theorem V_v33_eq : (V m c main_v33 : FVec F S6x12800000 .f32)
    = takeCols (table (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5)))
        (dstWords (m ((c.tc : Thread nD τ).loc main_arg4))) := by
  show StableHlo.after (List.flatten (pre (F := F))) (fun b => m (c, b)) (Proc.devRef .tc main_v33) = _
  rw [V0_eq, st5_v33, st4_v33, st3_v33, st2_v33, st1_v31, st1_v3, st0_v31, st0_v3]

/-- The molecule index per edge: row 5 of the source features, rounded and turned back into an integer. -/
theorem V_v37_eq : (V m c main_v37 : IVec S12800000 32) = molOf (V m c main_v32 : FVec F S6x12800000 .f32) := by
  show StableHlo.after (List.flatten (pre (F := F))) (fun b => m (c, b)) (Proc.devRef .tc main_v37)
    = molOf (StableHlo.after (List.flatten (pre (F := F))) (fun b => m (c, b)) (Proc.devRef .tc main_v32))
  rw [V0_eq, st5_v37, st4_v36, st3_v35, st5_v32, st4_v32, st3_v32]
  rfl

end Buffers

/-! ## Read at an index, at the ideal instance -/

section Export
variable (m : (ℓ : Loc nD τ sig) → Buf (Elt Ideal) ℓ) (c : Dev nD)

/-- The positions, one row per atom. -/
abbrev a0 := m ((c.tc : Thread nD τ).loc main_arg0)
/-- The first per-element table (the screening parameter). -/
abbrev a1 := m ((c.tc : Thread nD τ).loc main_arg1)
/-- The second per-element table (the effective charge). -/
abbrev a2 := m ((c.tc : Thread nD τ).loc main_arg2)
/-- The atomic numbers. -/
abbrev a3 := m ((c.tc : Thread nD τ).loc main_arg3)
/-- The edges' endpoints: row 0 the sources, row 1 the destinations. -/
abbrev a4 := m ((c.tc : Thread nD τ).loc main_arg4)
/-- The atoms' molecule indices. -/
abbrev a5 := m ((c.tc : Thread nD τ).loc main_arg5)

/-- The per-atom feature table, row `r`, atom `a`: the three coordinates, the two element parameters looked up at the
    atom's atomic number, and the molecule index as a real. -/
def feat (r : Fin 6) (a : Fin 200000) : EReal :=
  match r with
  | 0 => a0 m c (ix2 a 0) | 1 => a0 m c (ix2 a 1) | 2 => a0 m c (ix2 a 2)
  | 3 => a1 m c (ix1 (Cert.Edge.elemOf (a3 m c (ix1 a)))) | 4 => a2 m c (ix1 (Cert.Edge.elemOf (a3 m c (ix1 a))))
  | 5 => (((a5 m c (ix1 a)).toInt : ℝ) : EReal)

/-- The feature table read at a row and an atom. -/
theorem table_feat (r : Fin 6) (a : Fin 200000) :
    table (F := Ideal) (a0 m c) (a1 m c) (a2 m c) (a3 m c) (a5 m c) (ix2 r a) = feat m c r a := by
  have hi : ∀ b : Fin S1x200000.rank, b.cast (rfl : S1x200000.rank = S6x200000.rank) ≠ (0 : Fin S6x200000.rank) →
      ((ix2 (0 : Fin 1) a : S1x200000.Idx) b).val = ((ix2 r a : S6x200000.Idx) (b.cast rfl)).val := fun b hb =>
    match b with | ⟨0, _⟩ => absurd rfl hb | ⟨1, _⟩ => rfl
  unfold table rows6
  fin_cases r
  · refine Eq.trans (concatenate_apply_piece (t := S6x200000) (0 : Fin S6x200000.rank) _ _ (ix2 _ a) 0 ?_ S1x200000
      (asRow (posCol0 (F := Ideal) (a0 m c))) ?_ rfl 0 ?_
      (ix2 (0 : Fin 1) a) hi ?_) ?_
    · simp
    · rfl
    · rfl
    · rfl
    · rw [asRow_apply, posCol0_apply]; rfl
  · refine Eq.trans (concatenate_apply_piece (t := S6x200000) (0 : Fin S6x200000.rank) _ _ (ix2 _ a) 1 ?_ S1x200000
      (asRow (posCol1 (F := Ideal) (a0 m c))) ?_ rfl 1 ?_
      (ix2 (0 : Fin 1) a) hi ?_) ?_
    · simp
    · rfl
    · rfl
    · rfl
    · rw [asRow_apply, posCol1_apply]; rfl
  · refine Eq.trans (concatenate_apply_piece (t := S6x200000) (0 : Fin S6x200000.rank) _ _ (ix2 _ a) 2 ?_ S1x200000
      (asRow (posCol2 (F := Ideal) (a0 m c))) ?_ rfl 2 ?_
      (ix2 (0 : Fin 1) a) hi ?_) ?_
    · simp
    · rfl
    · rfl
    · rfl
    · rw [asRow_apply, posCol2_apply]; rfl
  · refine Eq.trans (concatenate_apply_piece (t := S6x200000) (0 : Fin S6x200000.rank) _ _ (ix2 _ a) 3 ?_ S1x200000
      (asRow (Host.gather (α := Ideal .f32) gather_S11_S200000x1_S200000_n_0_n_n_0_1_1 (a1 m c) (elemCol (a3 m c)))) ?_ rfl 3 ?_
      (ix2 (0 : Fin 1) a) hi ?_) ?_
    · simp
    · rfl
    · rfl
    · rfl
    · rw [asRow_apply, elemTake_apply (F := Ideal)]; rfl
  · refine Eq.trans (concatenate_apply_piece (t := S6x200000) (0 : Fin S6x200000.rank) _ _ (ix2 _ a) 4 ?_ S1x200000
      (asRow (Host.gather (α := Ideal .f32) gather_S11_S200000x1_S200000_n_0_n_n_0_1_1 (a2 m c) (elemCol (a3 m c)))) ?_ rfl 4 ?_
      (ix2 (0 : Fin 1) a) hi ?_) ?_
    · simp
    · rfl
    · rfl
    · rfl
    · rw [asRow_apply, elemTake_apply (F := Ideal)]; rfl
  · refine Eq.trans (concatenate_apply_piece (t := S6x200000) (0 : Fin S6x200000.rank) _ _ (ix2 _ a) 5 ?_ S1x200000
      (asRow (sitofp (F := Ideal) .f32 (a5 m c))) ?_ rfl 5 ?_
      (ix2 (0 : Fin 1) a) hi ?_) ?_
    · simp
    · rfl
    · rfl
    · rfl
    · rw [asRow_apply]; rfl

/-- The source features of edge `e` are its source atom's row of the feature table. -/
theorem V_v32_apply (hr : Cert.Edge.InRange (a4 m c)) (r : Fin 6) (e : Fin 12800000) :
    (V m c main_v32 : S6x12800000.Idx → EReal) (ix2 r e) = feat m c r (Cert.Edge.atomOf (a4 m c (ix2 0 e))) := by
  rw [V_v32_eq, takeCols_apply _ _ (fun e' => by rw [srcWords_apply]; exact hr _) r e, srcWords_apply]
  exact table_feat m c r _

/-- The destination features of edge `e` are its destination atom's row of the feature table. -/
theorem V_v33_apply (hr : Cert.Edge.InRange (a4 m c)) (r : Fin 6) (e : Fin 12800000) :
    (V m c main_v33 : S6x12800000.Idx → EReal) (ix2 r e) = feat m c r (Cert.Edge.atomOf (a4 m c (ix2 1 e))) := by
  rw [V_v33_eq, takeCols_apply _ _ (fun e' => by rw [dstWords_apply]; exact hr _) r e, dstWords_apply]
  exact table_feat m c r _

/-- The molecule index recorded for edge `e` is its source atom's. -/
theorem V_v37_apply (hr : Cert.Edge.InRange (a4 m c)) (e : Fin 12800000) :
    (V m c main_v37 : S12800000.Idx → BitVec 32) (ix1 e) = a5 m c (ix1 (Cert.Edge.atomOf (a4 m c (ix2 0 e)))) := by
  rw [V_v37_eq, molOf_apply, V_v32_apply m c hr 5 e, Ideal.hostUnary_roundeven_def]
  exact Cert.Edge.fptosi_roundeven_sitofp _

end Export

end Cert.KernelIdeal.Frame

end
-- ==== Proof.KIBlocks.lean ====
/-
  From the blocks to the array: what the pipelined call leaves in its output row.

  The call cuts the 12 800 000 edges into a hundred blocks of 128 000.  On block t the body reads the block's
  source-atom features and destination-atom features (six rows each: x, y, z, the screening parameter, the
  charge, the molecule index) and stores one number per edge.  Lane by lane that number is the screened
  repulsion of the edge: the distance of the two atoms (never below a floor), scaled to atomic units; the
  product of the charges times the exponential of minus the root of the product of the screening parameters
  times the scaled distance to the power 3/2, divided by the scaled distance; kept when the two atoms lie in
  one molecule and within the cutoff, zero otherwise.  Block t of either input is columns 128000 t to
  128000 (t+1) of its array, and block t of the output is written back to the same columns.  So after all
  hundred blocks, column e of the output row holds that formula of column e of the two feature arrays.
-/
import proofs.«401051_j18562848654089_3_alg».proof.Proof.Gen.KernelIdeal.Launch
import proofs.«401051_j18562848654089_3_alg».proof.Proof.Gen.KernelIdeal.Skeleton
import proofs.«401051_j18562848654089_3_alg».proof.Proof.Gen.KernelIdeal.Points
import proofs.«401051_j18562848654089_3_alg».proof.Proof.KIData
import proofs.«401051_j18562848654089_3_alg».proof.Proof.EdgeSpec
import Idealize.ShloMosaic.Lib.Pipeline.Value
import Idealize.ShloMosaic.Lib.ValueLayout
import Idealize.ShloMosaic.Lib.ValueIdx
import Idealize.ShloMosaic.PureOps.Ideal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ) (c : Dev nD)

/-- The zero offsets of a whole-block rectangle. -/
theorem hz : (![0, 0] : Fin 2 → Nat) = fun _ => 0 := funext fun a => by fin_cases a <;> rfl

/-- Row `o` of a six-row block, flattened to a vector: its lane `q` is the block's entry `(o, q)`. -/
theorem row_apply (x : FVec Ideal S6x128000 .f32) (o : Nat) (ho : o < 6) (hs : S6x128000.Slices ![o, 0] S1x128000)
    (q : Fin 128000) :
    shapeCast S128000 (extractStridedSlice S1x128000 ![o, 0] x hs) shapeCasts_S1x128000_S128000 (ix1 q)
      = x (ix2 ⟨o, ho⟩ q) := by
  rw [shapeCast_1a_a_apply]
  exact extractStridedSlice_apply _ x hs _ _ (fun a => match a with
    | ⟨0, _⟩ => by show o = o + 0; omega
    | ⟨1, _⟩ => by show q.val = 0 + q.val; omega)

/-! The six rows, each at its literal offset. -/

theorem row0 (x : FVec Ideal S6x128000 .f32) (q : Fin 128000) :
    shapeCast S128000 (extractStridedSlice S1x128000 ![0, 0] x slices_S6x128000_o0_0_S1x128000) shapeCasts_S1x128000_S128000 (ix1 q) = x (ix2 0 q) :=
  row_apply x 0 (by omega) _ q
theorem row1 (x : FVec Ideal S6x128000 .f32) (q : Fin 128000) :
    shapeCast S128000 (extractStridedSlice S1x128000 ![1, 0] x slices_S6x128000_o1_0_S1x128000) shapeCasts_S1x128000_S128000 (ix1 q) = x (ix2 1 q) :=
  row_apply x 1 (by omega) _ q
theorem row2 (x : FVec Ideal S6x128000 .f32) (q : Fin 128000) :
    shapeCast S128000 (extractStridedSlice S1x128000 ![2, 0] x slices_S6x128000_o2_0_S1x128000) shapeCasts_S1x128000_S128000 (ix1 q) = x (ix2 2 q) :=
  row_apply x 2 (by omega) _ q
theorem row3 (x : FVec Ideal S6x128000 .f32) (q : Fin 128000) :
    shapeCast S128000 (extractStridedSlice S1x128000 ![3, 0] x slices_S6x128000_o3_0_S1x128000) shapeCasts_S1x128000_S128000 (ix1 q) = x (ix2 3 q) :=
  row_apply x 3 (by omega) _ q
theorem row4 (x : FVec Ideal S6x128000 .f32) (q : Fin 128000) :
    shapeCast S128000 (extractStridedSlice S1x128000 ![4, 0] x slices_S6x128000_o4_0_S1x128000) shapeCasts_S1x128000_S128000 (ix1 q) = x (ix2 4 q) :=
  row_apply x 4 (by omega) _ q
theorem row5 (x : FVec Ideal S6x128000 .f32) (q : Fin 128000) :
    shapeCast S128000 (extractStridedSlice S1x128000 ![5, 0] x slices_S6x128000_o5_0_S1x128000) shapeCasts_S1x128000_S128000 (ix1 q) = x (ix2 5 q) :=
  row_apply x 5 (by omega) _ q

/-- The body's two casts of a loaded block to its own shape change nothing. -/
theorem pay2_eq (x : Vec Ideal S6x128000 .f32) : k0_pay2 x = x := by
  unfold k0_pay2; exact shapeCast_self _ _
theorem pay3_eq (x : Vec Ideal S6x128000 .f32) : k0_pay3 x = x := by
  unfold k0_pay3; exact shapeCast_self _ _

/-- The molecule index of the source atom at lane `q`. -/
theorem pay6_apply (x : Vec Ideal S6x128000 .f32) (q : Fin 128000) : k0_pay6 x (ix1 q) = x (ix2 5 q) := by
  unfold k0_pay6
  rw [pay2_eq]
  exact row5 x q
/-- The molecule index of the destination atom at lane `q`. -/
theorem pay7_apply (x : Vec Ideal S6x128000 .f32) (q : Fin 128000) : k0_pay7 x (ix1 q) = x (ix2 5 q) := by
  unfold k0_pay7
  rw [pay3_eq]
  exact row5 x q

/-- The floored distance of the two atoms at lane `q`. -/
theorem pay4_apply (x0 x2 : Vec Ideal S6x128000 .f32) (q : Fin 128000) :
    k0_pay4 x0 x2 (ix1 q)
      = max (Ideal.sqrt (((x0 (ix2 0 q) - x2 (ix2 0 q)) * (x0 (ix2 0 q) - x2 (ix2 0 q))
            + (x0 (ix2 1 q) - x2 (ix2 1 q)) * (x0 (ix2 1 q) - x2 (ix2 1 q)))
            + (x0 (ix2 2 q) - x2 (ix2 2 q)) * (x0 (ix2 2 q) - x2 (ix2 2 q)))) Cert.Edge.cMin := by
  unfold k0_pay4
  rw [pay2_eq, pay3_eq]
  rw [← row0 x0 q, ← row0 x2 q, ← row1 x0 q, ← row1 x2 q, ← row2 x0 q, ← row2 x2 q]
  rfl

/-- The screened repulsion at lane `q`, before the mask, in terms of the floored distance `r` of the lane. -/
theorem pay5_apply (x0 x2 : Vec Ideal S6x128000 .f32) (q : Fin 128000) :
    k0_pay5 x0 x2 (ix1 q)
      = Ideal.div ((x0 (ix2 4 q) * x2 (ix2 4 q))
          * Ideal.exp ((Cert.Edge.cZero - Ideal.sqrt (x0 (ix2 3 q) * x2 (ix2 3 q)))
              * ((k0_pay4 x0 x2 (ix1 q) * Cert.Edge.cAu) * Ideal.sqrt (k0_pay4 x0 x2 (ix1 q) * Cert.Edge.cAu))))
          (k0_pay4 x0 x2 (ix1 q) * Cert.Edge.cAu) := by
  unfold k0_pay5
  rw [pay2_eq, pay3_eq]
  rw [← row3 x0 q, ← row3 x2 q, ← row4 x0 q, ← row4 x2 q]
  rfl

/-- The mask at lane `(u, q)` of the stored block: the value `v47` where the two molecule indices agree and the
    distance is within the cutoff, zero elsewhere. -/
theorem pay1_apply (v26 v47 v49 v51 : FVec Ideal S128000 .f32) (u : Fin 1) (q : Fin 128000) :
    k0_pay1 v26 v47 v49 v51 (ix2 u q)
      = Scalar.select (IntOp.andi (Ideal.cmp .oeq (v49 (ix1 q)) (v51 (ix1 q))) (Ideal.cmp .ole (v26 (ix1 q)) Cert.Edge.cCut))
          (v47 (ix1 q)) Cert.Edge.cZero := by
  unfold k0_pay1
  rw [shapeCast_a_1a_apply]
  rfl

/-- THE PAYLOAD AT A LANE: what the body stores at lane `(u, q)` of the block is the edge formula of the twelve
    features of the lane. -/
theorem blockVal_apply (x0 x1 : Vec Ideal S6x128000 .f32) (u : Fin 1) (q : Fin 128000) :
    blockVal x0 x1 (ix2 u q)
      = Cert.Edge.kerRep (x0 (ix2 0 q)) (x0 (ix2 1 q)) (x0 (ix2 2 q)) (x0 (ix2 3 q)) (x0 (ix2 4 q)) (x0 (ix2 5 q))
          (x1 (ix2 0 q)) (x1 (ix2 1 q)) (x1 (ix2 2 q)) (x1 (ix2 3 q)) (x1 (ix2 4 q)) (x1 (ix2 5 q)) := by
  unfold blockVal
  rw [View.ld_unit_zero (S := S6x128000) hz, View.ld_unit_zero (S := S6x128000) hz]
  rw [pay1_apply, pay6_apply, pay7_apply, pay5_apply, pay4_apply]
  rfl

/-- The contribution of edge `e` as a function of the two feature arrays: the edge formula of column `e`. -/
def edgeVal (X Y : S6x12800000.Idx → EReal) (e : Fin 12800000) : EReal :=
  Cert.Edge.kerRep (X (ix2 0 e)) (X (ix2 1 e)) (X (ix2 2 e)) (X (ix2 3 e)) (X (ix2 4 e)) (X (ix2 5 e))
    (Y (ix2 0 e)) (Y (ix2 1 e)) (Y (ix2 2 e)) (Y (ix2 3 e)) (Y (ix2 4 e)) (Y (ix2 5 e))

/-- The whole output row as ONE function of the two feature arrays. -/
def G (X Y : S6x12800000.Idx → EReal) : S1x12800000.Idx → EReal := fun j => edgeVal X Y ⟨(j 1).val, idx2_lt1 j⟩

/-- The three windows' index maps over the grid: block `t` is row block 0 and column block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Entry `(r, q)` of block `t` of the source-feature window, read off any contents `A` of its array, is
    `A` at `(r, 128000 t + q)`. -/
theorem read_blk0_apply (A : S6x12800000.Idx → EReal) (t : Fin cfg0.N) (r : Fin 6) (q : Fin 128000) (k : S6x12800000.Idx)
    (hk0 : (k 0).val = r.val) (hk1 : (k 1).val = t.val * 128000 + q.val) :
    (((cfg0.win 0).blk t).view.read (Elt Ideal) A : Vec Ideal S6x128000 .f32) (ix2 r q) = A k := by
  obtain ⟨e0, e1, -, -, -, -⟩ := idx_facts t
  show A (((cfg0.win 0).blk t).view.emb (ix2 r q)) = A k
  refine congrArg A ?_
  funext a
  apply Fin.ext
  match a with
  | ⟨0, _⟩ => show win0_0.index t (0 : Fin 2) * 6 + 1 * r.val = (k 0).val; rw [e0, hk0]; omega
  | ⟨1, _⟩ => show win0_0.index t (1 : Fin 2) * 128000 + 1 * q.val = (k 1).val; rw [e1, hk1]; omega

/-- The same for the destination-feature window. -/
theorem read_blk1_apply (A : S6x12800000.Idx → EReal) (t : Fin cfg0.N) (r : Fin 6) (q : Fin 128000) (k : S6x12800000.Idx)
    (hk0 : (k 0).val = r.val) (hk1 : (k 1).val = t.val * 128000 + q.val) :
    (((cfg0.win 1).blk t).view.read (Elt Ideal) A : Vec Ideal S6x128000 .f32) (ix2 r q) = A k := by
  obtain ⟨-, -, e2, e3, -, -⟩ := idx_facts t
  show A (((cfg0.win 1).blk t).view.emb (ix2 r q)) = A k
  refine congrArg A ?_
  funext a
  apply Fin.ext
  match a with
  | ⟨0, _⟩ => show win0_1.index t (0 : Fin 2) * 6 + 1 * r.val = (k 0).val; rw [e2, hk0]; omega
  | ⟨1, _⟩ => show win0_1.index t (1 : Fin 2) * 128000 + 1 * q.val = (k 1).val; rw [e3, hk1]; omega

/-- Lane `(u, q)` of block `t` of the output row is column `128000 t + q` of the row. -/
theorem emb_blk2 (t : Fin cfg0.N) (u : Fin 1) (q : Fin 128000) :
    ((((cfg0.win 2).blk t).view.emb (ix2 u q) : S1x12800000.Idx) 1).val = t.val * 128000 + q.val := by
  obtain ⟨-, -, -, -, -, e5⟩ := idx_facts t
  show win0_2.index t (1 : Fin 2) * 128000 + 1 * q.val = _
  rw [e5]; omega

/-- WHAT BLOCK `t` STORES, for any contents `A`, `B` of the two feature arrays: the body's value on block `t` of
    `A` and of `B` is block `t` of the row `G A B`. -/
theorem block_eq (A B : S6x12800000.Idx → EReal) (t : Fin cfg0.N) :
    (cfg0.win 2).cut (grid0.coords t)
        (blockVal (((cfg0.win 0).blk t).view.read (Elt Ideal) A) (((cfg0.win 1).blk t).view.read (Elt Ideal) B))
      = ((cfg0.win 2).blk t).view.read (Elt Ideal) (G A B) := by
  funext j
  obtain ⟨u, q, rfl⟩ : ∃ (u : Fin 1) (q : Fin 128000), j = ix2 u q := ⟨j 0, j 1, eq_ix2 j⟩
  show blockVal (((cfg0.win 0).blk t).view.read (Elt Ideal) A) (((cfg0.win 1).blk t).view.read (Elt Ideal) B) (ix2 u q)
      = G A B (((cfg0.win 2).blk t).view.emb (ix2 u q))
  rw [blockVal_apply]
  have hq : t.val * 128000 + q.val < 12800000 := by
    have ht : t.val < 100 := lt_of_lt_of_eq t.isLt (show cfg0.N = 100 from N_0)
    have := q.isLt; omega
  have hk : (⟨((((cfg0.win 2).blk t).view.emb (ix2 u q) : S1x12800000.Idx) 1).val, idx2_lt1 _⟩ : Fin 12800000)
      = ⟨t.val * 128000 + q.val, hq⟩ := Fin.ext (emb_blk2 t u q)
  unfold G edgeVal
  rw [hk]
  rw [read_blk0_apply A t 0 q (ix2 0 ⟨_, hq⟩) rfl rfl, read_blk0_apply A t 1 q (ix2 1 ⟨_, hq⟩) rfl rfl,
    read_blk0_apply A t 2 q (ix2 2 ⟨_, hq⟩) rfl rfl, read_blk0_apply A t 3 q (ix2 3 ⟨_, hq⟩) rfl rfl,
    read_blk0_apply A t 4 q (ix2 4 ⟨_, hq⟩) rfl rfl, read_blk0_apply A t 5 q (ix2 5 ⟨_, hq⟩) rfl rfl,
    read_blk1_apply B t 0 q (ix2 0 ⟨_, hq⟩) rfl rfl, read_blk1_apply B t 1 q (ix2 1 ⟨_, hq⟩) rfl rfl,
    read_blk1_apply B t 2 q (ix2 2 ⟨_, hq⟩) rfl rfl, read_blk1_apply B t 3 q (ix2 3 ⟨_, hq⟩) rfl rfl,
    read_blk1_apply B t 4 q (ix2 4 ⟨_, hq⟩) rfl rfl, read_blk1_apply B t 5 q (ix2 5 ⟨_, hq⟩) rfl rfl]

/-- Column `e` of the row `G X Y` is the edge formula of column `e` of `X` and `Y`. -/
theorem G_apply (X Y : S6x12800000.Idx → EReal) (e : Fin 12800000) :
    G X Y (ix2 0 e)
      = Cert.Edge.kerRep (X (ix2 0 e)) (X (ix2 1 e)) (X (ix2 2 e)) (X (ix2 3 e)) (X (ix2 4 e)) (X (ix2 5 e))
          (Y (ix2 0 e)) (Y (ix2 1 e)) (Y (ix2 2 e)) (Y (ix2 3 e)) (Y (ix2 4 e)) (Y (ix2 5 e)) := rfl

/-- WHAT POINT `t` WRITES BACK is block `t` of the row `G` of the two feature arrays as the call finds them. -/
theorem flushed_eq (t : Fin cfg0.N) :
    (dats m 0 c).flushed 2 t = ((cfg0.win 2).blk t).view.read (Elt Ideal) (G (V m c main_v32) (V m c main_v33)) := by
  show (cfg0.win 2).cut (grid0.coords t) ((dats m 0 c).after 2 t) = _
  rw [after0_2]
  unfold out0_2
  rw [View.canon_unit_zero hz]
  unfold iblk
  exact block_eq (V m c main_v32) (V m c main_v33) t

/-- A column of the output row is in point `t`'s block iff it lies in the block's range on either axis. -/
theorem mem_blk (t : Fin cfg0.N) (i : S1x12800000.Idx) :
    i ∈ ((cfg0.win 2).blk t).view.set ↔ ∀ a : Fin 2, win0_2.index t a * S1x128000.size a ≤ (i a).val
      ∧ (i a).val < win0_2.index t a * S1x128000.size a + S1x128000.size a := by
  show i ∈ ((View.whole main_v38).slice (win0_2.rect t)).set ↔ _
  rw [View.set_slice_whole, Rect.mem_set_unit]
  exact Iff.rfl

/-- THE COVER: column `e` of the output row lies in the block of point `e / 128000`. -/
theorem cover (i : S1x12800000.Idx) :
    ∃ t : Fin cfg0.N, (cfg0.win 2).flush t = true ∧ i ∈ ((cfg0.win 2).blk t).view.set := by
  have hi0 : (i 0).val < 1 := (i 0).isLt
  have hi1 : (i 1).val < 12800000 := (i 1).isLt
  have hN : cfg0.N = 100 := N_0
  have ht : (i 1).val / 128000 < cfg0.N := by rw [hN]; omega
  obtain ⟨-, -, -, -, e4, e5⟩ := idx_facts ⟨(i 1).val / 128000, ht⟩
  refine ⟨⟨(i 1).val / 128000, ht⟩, flush0_2 _, ?_⟩
  rw [mem_blk]
  intro a
  match a with
  | ⟨0, _⟩ =>
    show win0_2.index ⟨(i 1).val / 128000, ht⟩ (0 : Fin 2) * 1 ≤ (i 0).val
      ∧ (i 0).val < win0_2.index ⟨(i 1).val / 128000, ht⟩ (0 : Fin 2) * 1 + 1
    rw [e4]; omega
  | ⟨1, _⟩ =>
    show win0_2.index ⟨(i 1).val / 128000, ht⟩ (1 : Fin 2) * 128000 ≤ (i 1).val
      ∧ (i 1).val < win0_2.index ⟨(i 1).val / 128000, ht⟩ (1 : Fin 2) * 128000 + 128000
    rw [e5]
    show (i 1).val / 128000 * 128000 ≤ (i 1).val ∧ (i 1).val < (i 1).val / 128000 * 128000 + 128000
    omega

/-- THE OUTPUT ROW after all hundred points: the row `G` of the two feature arrays as the call finds them. -/
theorem final2 : (dats m 0 c).arrAt 2 cfg0.N = G (V m c main_v32) (V m c main_v33) :=
  (dats m 0 c).arrAt_eq_of_cover 2 (G (V m c main_v32) (V m c main_v33)) (fun t _ => flushed_eq m c t) cover

/-- Column `e` of the output row after the call: the edge formula of column `e` of the source features and of
    the destination features. -/
theorem final2_apply (e : Fin 12800000) :
    ((dats m 0 c).arrAt 2 cfg0.N : S1x12800000.Idx → EReal) (ix2 0 e)
      = Cert.Edge.kerRep
          ((V m c main_v32 : S6x12800000.Idx → EReal) (ix2 0 e)) ((V m c main_v32 : S6x12800000.Idx → EReal) (ix2 1 e))
          ((V m c main_v32 : S6x12800000.Idx → EReal) (ix2 2 e)) ((V m c main_v32 : S6x12800000.Idx → EReal) (ix2 3 e))
          ((V m c main_v32 : S6x12800000.Idx → EReal) (ix2 4 e)) ((V m c main_v32 : S6x12800000.Idx → EReal) (ix2 5 e))
          ((V m c main_v33 : S6x12800000.Idx → EReal) (ix2 0 e)) ((V m c main_v33 : S6x12800000.Idx → EReal) (ix2 1 e))
          ((V m c main_v33 : S6x12800000.Idx → EReal) (ix2 2 e)) ((V m c main_v33 : S6x12800000.Idx → EReal) (ix2 3 e))
          ((V m c main_v33 : S6x12800000.Idx → EReal) (ix2 4 e)) ((V m c main_v33 : S6x12800000.Idx → EReal) (ix2 5 e)) :=
  (congrFun (final2 m c) (ix2 0 e)).trans (G_apply _ _ e)

end Cert.KernelIdeal.Frame

end
-- ==== Proof.KITail.lean ====
/-
  What the host computes after the pipelined call.

  The call leaves one row of 12 800 000 edge contributions.  The host flattens the row, adds every edge's
  contribution into the slot of its molecule (2048 slots, starting from zero, the slot chosen by the molecule
  index of the edge's source atom), multiplies every slot by one constant (the energy unit), and presents the
  result as a column.  This module reads that off the list of host operations: the program's result is the
  stated expression in the row the call leaves and in the molecule indices the host prepared before the call.
-/
import proofs.«401051_j18562848654089_3_alg».proof.Proof.Gen.KernelIdeal.Launch
import proofs.«401051_j18562848654089_3_alg».proof.Proof.Gen.KernelIdeal.Skeleton
import proofs.«401051_j18562848654089_3_alg».proof.Proof.Gen.KernelIdeal.Points
import proofs.«401051_j18562848654089_3_alg».proof.Proof.KIData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The nine host operations after the call, from ANY contents `W` of the buffers: the result buffer holds the
    row at the call's output buffer, flattened, scatter-added into 2048 zeros by the indices at the
    molecule-index buffer, scaled, and shaped as a column. -/
theorem tail_of (W : Valuation τ sig (Elt F)) :
    StableHlo.after hostOps1 W (Proc.devRef .tc main_v45)
      = shapeCast _ (mulf (Host.scatterAdd scatter_S2048_S12800000x1_S12800000_n_0_0_1
            (broadcastInDim S2048 ![] bcast_S_S2048 (constant S_ .f32 0x00000000#32))
            (broadcastInDim S12800000x1 ![0] bcast_S12800000_S12800000x1_0 (W (Proc.devRef .tc main_v37)))
            (shapeCast _ (W (Proc.devRef .tc main_v38)) shapeCasts_S1x12800000_S12800000))
          (broadcastInDim S2048 ![] bcast_S_S2048 (constant S_ .f32 0x441CE09B#32))) shapeCasts_S2048_S2048x1 := by
  after_results
  rfl

variable (m : (ℓ : Loc nD τ sig) → Buf (Elt F) ℓ)

/-- The program's result buffer after the host operations that follow the call: the per-edge row the call leaves,
    flattened, scatter-added into 2048 zeros by the molecule indices, scaled, and shaped as a column. -/
theorem tail_v45 (c : Dev nD) :
    Pipeline.afterTail₀ cfgs (dats m) 0 (V0 m) [hostOps1] c main_v45
      = shapeCast _ (mulf (Host.scatterAdd scatter_S2048_S12800000x1_S12800000_n_0_0_1
            (broadcastInDim S2048 ![] bcast_S_S2048 (constant S_ .f32 0x00000000#32))
            (broadcastInDim S12800000x1 ![0] bcast_S12800000_S12800000x1_0 (V m c main_v37))
            (shapeCast _ ((dats m 0 c).arrAt 2 cfg0.N) shapeCasts_S1x12800000_S12800000))
          (broadcastInDim S2048 ![] bcast_S_S2048 (constant S_ .f32 0x441CE09B#32))) shapeCasts_S2048_S2048x1 := by
  unfold Pipeline.afterTail₀
  show StableHlo.after hostOps1 _ (Proc.devRef .tc main_v45) = _
  rw [tail_of]
  have h38 := Pipeline.withArrays_arr spec0 launch0.win.arr_inj c (V0 m c) (fun w => (dats m 0 c).arrAt w cfg0.N) 2
  have h37 := Pipeline.withArrays_of_ne spec0 c (V0 m c) (fun w => (dats m 0 c).arrAt w cfg0.N) main_v37
    (by decide : ∀ w, Pipeline.arrRef spec0 w ≠ main_v37)
  have e37 : Pipeline.withArrays (cfgs 0).spec c (V0 m c) (fun w => (dats m 0 c).arrAt w (cfgs 0).N) (Proc.devRef .tc main_v37)
      = V m c main_v37 := h37
  have e38 : Pipeline.withArrays (cfgs 0).spec c (V0 m c) (fun w => (dats m 0 c).arrAt w (cfgs 0).N) (Proc.devRef .tc main_v38)
      = (dats m 0 c).arrAt 2 cfg0.N := h38
  rw [e37, e38]

end Cert.KernelIdeal.Frame

end
-- ==== Proof.RefValue.lean ====
/-
  The reference's per-edge number and per-edge molecule index, read at one edge.

  For every edge the reference takes the two endpoint words from the edge table, reads a negative word from the end
  of the atom axis, and takes from the per-atom arrays (positions, atomic numbers, molecule indices) the entries of the
  two atoms the words name; the atomic numbers in turn, read the same way, name rows of the two element tables.  Each
  such take reads its array at the word brought into the axis from either side.  From the taken numbers the
  reference forms the screened repulsion of the edge, masked by "same molecule and within the cutoff".

  Here each of the thirteen takes is read at an edge, and the arithmetic that follows them is identified with the
  scalar function `Cert.Edge.refRep` of the taken numbers.  No assumption on the inputs is used: an endpoint word or
  an atomic number outside its axis reads the entry the take's clamping gives it, on both sides of every equation.
-/
import proofs.«401051_j18562848654089_3_alg».proof.Proof.Gen.ReferenceIdeal.Read
import proofs.«401051_j18562848654089_3_alg».proof.Proof.EdgeSpec
import proofs.«401051_j18562848654089_3_alg».proof.Proof.LibGather
import Idealize.ShloMosaic.Lib.StableHlo.Predicate
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate (ixP gather_take bcast_col1 bcast_scalar)

/-! ## Indices, the two rows of the edge table, and the three takes -/

/-- The one-coordinate index built from a position is the literal-size one. -/
theorem ofFin_eq_ix1 {n : Nat} (p : Fin n) : (Shape.Idx.ofFin p : (⟨1, ![n]⟩ : Shape).Idx) = ix1 p := by
  funext a; match a with | ⟨0, _⟩ => rfl

/-- The first row of the edge table, as a vector: the source word of edge `p`. -/
theorem v1_at (x4 : (⟨S2x12800000, .i32⟩ : BufTy).Contents (Elt Ideal)) (p : Fin 12800000) :
    val_main_v1 (F := Ideal) x4 (ix1 p) = x4 (ix2 0 p) := by
  rw [val_main_v1_apply, val_main_v0_apply]
  refine congrArg x4 (funext fun a => ?_)
  match a with
  | ⟨0, _⟩ => rfl
  | ⟨1, _⟩ => exact Fin.ext (Nat.mod_eq_of_lt p.isLt)

/-- The second row: the destination word of edge `p`. -/
theorem v3_at (x4 : (⟨S2x12800000, .i32⟩ : BufTy).Contents (Elt Ideal)) (p : Fin 12800000) :
    val_main_v3 (F := Ideal) x4 (ix1 p) = x4 (ix2 1 p) := by
  rw [val_main_v3_apply, val_main_v2_apply]
  refine congrArg x4 (funext fun a => ?_)
  match a with
  | ⟨0, _⟩ => rfl
  | ⟨1, _⟩ => exact Fin.ext (Nat.mod_eq_of_lt p.isLt)

/-- A take from a per-atom vector: position `p` reads the vector at its start word brought into the atom axis. -/
theorem take200k {α : Type} (x : S200000.Idx → α) (idx : IVec S12800000x1 32) (p : Fin 12800000) :
    Host.gather gather_S200000_S12800000x1_S12800000_n_0_n_n_0_1_1 x idx (ix1 p)
      = x (ix1 (Cert.Edge.clampPos 200000 (by norm_num) (idx (ixP p)))) := by
  have h := gather_take gather_S200000_S12800000x1_S12800000_n_0_n_n_0_1_1 rfl rfl rfl rfl x idx p (by norm_num)
  rw [ofFin_eq_ix1, ofFin_eq_ix1] at h
  exact h

/-- A take from an element table: position `p` reads the table at its start word brought into the 11 rows. -/
theorem take11 {α : Type} (x : S11.Idx → α) (idx : IVec S12800000x1 32) (p : Fin 12800000) :
    Host.gather gather_S11_S12800000x1_S12800000_n_0_n_n_0_1_1 x idx (ix1 p)
      = x (ix1 (Cert.Edge.clampPos 11 (by norm_num) (idx (ixP p)))) := by
  have h := gather_take gather_S11_S12800000x1_S12800000_n_0_n_n_0_1_1 rfl rfl rfl rfl x idx p (by norm_num)
  rw [ofFin_eq_ix1, ofFin_eq_ix1] at h
  exact h

/-- A take of rows of the position table: position `p`, coordinate `k` reads the same coordinate of the row its
    start word names. -/
theorem takeRows {α : Type} (x : S200000x3.Idx → α) (idx : IVec S12800000x1 32) (p : Fin 12800000) (k : Fin 3) :
    Host.gather gather_S200000x3_S12800000x1_S12800000x3_1_0_n_n_0_1_13 x idx (ix2 p k)
      = x (ix2 (Cert.Edge.clampPos 200000 (by norm_num) (idx (ixP p))) k) :=
  Cert.Lib.gather_rows gather_S200000x3_S12800000x1_S12800000x3_1_0_n_n_0_1_13 rfl rfl rfl rfl rfl x idx p k (by norm_num)

/-! ## The start-word columns -/

/-- A column of index words, each with the axis length `m` added when it is negative, read at row `p`. -/
theorem wrap_col (w : IVec S12800000 32) (z c : IVec S_ 32) (m : BitVec 32)
    (hz : ∀ i, z i = 0#32) (hc : ∀ i, c i = m) (p : Fin 12800000) :
    broadcastInDim S12800000x1 ![0] bcast_S12800000_S12800000x1_0
        (select (cmpi .slt w (broadcastInDim S12800000 ![] bcast_S_S12800000 z))
          (addi w (broadcastInDim S12800000 ![] bcast_S_S12800000 c)) w) (ixP p)
      = Cert.Edge.wrapIdx m (w (ix1 p)) := by
  rw [bcast_col1, ofFin_eq_ix1]
  show Scalar.select (IntOp.cmpi .slt (w (ix1 p)) (broadcastInDim S12800000 ![] bcast_S_S12800000 z (ix1 p)))
      (IntOp.addi (w (ix1 p)) (broadcastInDim S12800000 ![] bcast_S_S12800000 c (ix1 p))) (w (ix1 p)) = _
  rw [bcast_scalar _ h_S_, bcast_scalar _ h_S_, hz, hc]
  rfl

section Edge

variable (x0 : (⟨S200000x3, .f32⟩ : BufTy).Contents (Elt Ideal)) (x1 x2 : (⟨S11, .f32⟩ : BufTy).Contents (Elt Ideal))
  (x3 : (⟨S200000, .i32⟩ : BufTy).Contents (Elt Ideal)) (x4 : (⟨S2x12800000, .i32⟩ : BufTy).Contents (Elt Ideal))
  (x5 : (⟨S200000, .i32⟩ : BufTy).Contents (Elt Ideal)) (p : Fin 12800000)

/-- The source atom of edge `p`. -/
abbrev src : Fin 200000 := Cert.Edge.atomOf (x4 (ix2 0 p))
/-- The destination atom of edge `p`. -/
abbrev dst : Fin 200000 := Cert.Edge.atomOf (x4 (ix2 1 p))

/-- The reference forms the wrapped source column five times and the wrapped destination column four times, once
    before each take from a per-atom array; every copy reads the same word. -/
theorem col9 : val_main_v9 (F := Ideal) x4 (ixP p) = Cert.Edge.wrapIdx 200000#32 (x4 (ix2 0 p)) := by
  rw [← v1_at x4 p]
  exact wrap_col (val_main_v1 (F := Ideal) x4) val_main_c val_main_c_0 200000#32 (fun _ => rfl) (fun _ => rfl) p
theorem col16 : val_main_v16 (F := Ideal) x4 (ixP p) = Cert.Edge.wrapIdx 200000#32 (x4 (ix2 1 p)) := by
  rw [← v3_at x4 p]
  exact wrap_col (val_main_v3 (F := Ideal) x4) val_main_c_1 val_main_c_2 200000#32 (fun _ => rfl) (fun _ => rfl) p
theorem col24 : val_main_v24 (F := Ideal) x4 (ixP p) = Cert.Edge.wrapIdx 200000#32 (x4 (ix2 0 p)) := by
  rw [← v1_at x4 p]
  exact wrap_col (val_main_v1 (F := Ideal) x4) val_main_c_3 val_main_c_4 200000#32 (fun _ => rfl) (fun _ => rfl) p
theorem col31 : val_main_v31 (F := Ideal) x4 (ixP p) = Cert.Edge.wrapIdx 200000#32 (x4 (ix2 1 p)) := by
  rw [← v3_at x4 p]
  exact wrap_col (val_main_v3 (F := Ideal) x4) val_main_c_5 val_main_c_6 200000#32 (fun _ => rfl) (fun _ => rfl) p
theorem col47 : val_main_v47 (F := Ideal) x4 (ixP p) = Cert.Edge.wrapIdx 200000#32 (x4 (ix2 0 p)) := by
  rw [← v1_at x4 p]
  exact wrap_col (val_main_v1 (F := Ideal) x4) val_main_c_9 val_main_c_10 200000#32 (fun _ => rfl) (fun _ => rfl) p
theorem col61 : val_main_v61 (F := Ideal) x4 (ixP p) = Cert.Edge.wrapIdx 200000#32 (x4 (ix2 1 p)) := by
  rw [← v3_at x4 p]
  exact wrap_col (val_main_v3 (F := Ideal) x4) val_main_c_13 val_main_c_14 200000#32 (fun _ => rfl) (fun _ => rfl) p
theorem col82 : val_main_v82 (F := Ideal) x4 (ixP p) = Cert.Edge.wrapIdx 200000#32 (x4 (ix2 0 p)) := by
  rw [← v1_at x4 p]
  exact wrap_col (val_main_v1 (F := Ideal) x4) val_main_c_18 val_main_c_19 200000#32 (fun _ => rfl) (fun _ => rfl) p
theorem col96 : val_main_v96 (F := Ideal) x4 (ixP p) = Cert.Edge.wrapIdx 200000#32 (x4 (ix2 1 p)) := by
  rw [← v3_at x4 p]
  exact wrap_col (val_main_v3 (F := Ideal) x4) val_main_c_22 val_main_c_23 200000#32 (fun _ => rfl) (fun _ => rfl) p
theorem col114 : val_main_v114 (F := Ideal) x4 (ixP p) = Cert.Edge.wrapIdx 200000#32 (x4 (ix2 0 p)) := by
  rw [← v1_at x4 p]
  exact wrap_col (val_main_v1 (F := Ideal) x4) val_main_c_27 val_main_c_28 200000#32 (fun _ => rfl) (fun _ => rfl) p

/-! ## The takes from the per-atom arrays -/

/-- The molecule index of the source atom … -/
theorem g10 : val_main_v10 (F := Ideal) x4 x5 (ix1 p) = x5 (ix1 (src x4 p)) := by
  unfold val_main_v10
  rw [take200k, col9]
  rfl
/-- … and of the destination atom. -/
theorem g17 : val_main_v17 (F := Ideal) x4 x5 (ix1 p) = x5 (ix1 (dst x4 p)) := by
  unfold val_main_v17
  rw [take200k, col16]
  rfl
/-- Coordinate `k` of the source atom's position … -/
theorem g25 (k : Fin 3) : val_main_v25 (F := Ideal) x0 x4 (ix2 p k) = x0 (ix2 (src x4 p) k) := by
  unfold val_main_v25
  rw [takeRows, col24]
  rfl
/-- … and of the destination atom's. -/
theorem g32 (k : Fin 3) : val_main_v32 (F := Ideal) x0 x4 (ix2 p k) = x0 (ix2 (dst x4 p) k) := by
  unfold val_main_v32
  rw [takeRows, col31]
  rfl
/-- The atomic number of the source atom (taken twice, once for each element table) … -/
theorem g48 : val_main_v48 (F := Ideal) x3 x4 (ix1 p) = x3 (ix1 (src x4 p)) := by
  unfold val_main_v48
  rw [take200k, col47]
  rfl
theorem g83 : val_main_v83 (F := Ideal) x3 x4 (ix1 p) = x3 (ix1 (src x4 p)) := by
  unfold val_main_v83
  rw [take200k, col82]
  rfl
/-- … and of the destination atom. -/
theorem g62 : val_main_v62 (F := Ideal) x3 x4 (ix1 p) = x3 (ix1 (dst x4 p)) := by
  unfold val_main_v62
  rw [take200k, col61]
  rfl
theorem g97 : val_main_v97 (F := Ideal) x3 x4 (ix1 p) = x3 (ix1 (dst x4 p)) := by
  unfold val_main_v97
  rw [take200k, col96]
  rfl

/-! ## The takes from the element tables -/

/-- The wrapped atomic-number columns. -/
theorem col54 : val_main_v54 (F := Ideal) x3 x4 (ixP p) = Cert.Edge.wrapIdx 11#32 (x3 (ix1 (src x4 p))) := by
  rw [← g48 x3 x4 p]
  exact wrap_col (val_main_v48 (F := Ideal) x3 x4) val_main_c_11 val_main_c_12 11#32 (fun _ => rfl) (fun _ => rfl) p
theorem col68 : val_main_v68 (F := Ideal) x3 x4 (ixP p) = Cert.Edge.wrapIdx 11#32 (x3 (ix1 (dst x4 p))) := by
  rw [← g62 x3 x4 p]
  exact wrap_col (val_main_v62 (F := Ideal) x3 x4) val_main_c_15 val_main_c_16 11#32 (fun _ => rfl) (fun _ => rfl) p
theorem col89 : val_main_v89 (F := Ideal) x3 x4 (ixP p) = Cert.Edge.wrapIdx 11#32 (x3 (ix1 (src x4 p))) := by
  rw [← g83 x3 x4 p]
  exact wrap_col (val_main_v83 (F := Ideal) x3 x4) val_main_c_20 val_main_c_21 11#32 (fun _ => rfl) (fun _ => rfl) p
theorem col103 : val_main_v103 (F := Ideal) x3 x4 (ixP p) = Cert.Edge.wrapIdx 11#32 (x3 (ix1 (dst x4 p))) := by
  rw [← g97 x3 x4 p]
  exact wrap_col (val_main_v97 (F := Ideal) x3 x4) val_main_c_24 val_main_c_25 11#32 (fun _ => rfl) (fun _ => rfl) p

/-- The first table's entry of the source atom's element … -/
theorem g55 : val_main_v55 (F := Ideal) x1 x3 x4 (ix1 p) = x1 (ix1 (Cert.Edge.elemOf (x3 (ix1 (src x4 p))))) := by
  unfold val_main_v55
  rw [take11, col54]
  rfl
/-- … and of the destination atom's element. -/
theorem g69 : val_main_v69 (F := Ideal) x1 x3 x4 (ix1 p) = x1 (ix1 (Cert.Edge.elemOf (x3 (ix1 (dst x4 p))))) := by
  unfold val_main_v69
  rw [take11, col68]
  rfl
/-- The second table's entry of the source atom's element … -/
theorem g90 : val_main_v90 (F := Ideal) x2 x3 x4 (ix1 p) = x2 (ix1 (Cert.Edge.elemOf (x3 (ix1 (src x4 p))))) := by
  unfold val_main_v90
  rw [take11, col89]
  rfl
/-- … and of the destination atom's element. -/
theorem g104 : val_main_v104 (F := Ideal) x2 x3 x4 (ix1 p) = x2 (ix1 (Cert.Edge.elemOf (x3 (ix1 (dst x4 p))))) := by
  unfold val_main_v104
  rw [take11, col103]
  rfl

end Edge

section Value

variable (x0 : (⟨S200000x3, .f32⟩ : BufTy).Contents (Elt Ideal)) (x1 x2 : (⟨S11, .f32⟩ : BufTy).Contents (Elt Ideal))
  (x3 : (⟨S200000, .i32⟩ : BufTy).Contents (Elt Ideal)) (x4 : (⟨S2x12800000, .i32⟩ : BufTy).Contents (Elt Ideal))
  (x5 : (⟨S200000, .i32⟩ : BufTy).Contents (Elt Ideal)) (e : Fin 12800000)

/-! ## The arithmetic of one edge -/

/-- The distance of the two atoms of edge `e`: the square root of zero plus the sum, over the three coordinates, of
    the squared differences of the two taken positions. -/
theorem v34_at : val_main_v34 (F := Ideal) x0 x4 (ix1 e)
    = Ideal.sqrt (Cert.Edge.cZero + ∑ k : Fin 3, (x0 (ix2 (src x4 e) k) - x0 (ix2 (dst x4 e) k)) * (x0 (ix2 (src x4 e) k) - x0 (ix2 (dst x4 e) k))) := by
  rw [val_main_v34_apply, val_main_call0_v1_apply, val_main_call0_cst_apply, Ideal.hostUnary_sqrt_def]
  refine congrArg (fun t => Ideal.sqrt (Cert.Edge.cZero + t)) (Finset.sum_congr rfl fun k _ => ?_)
  rw [val_main_call0_v0_apply, val_main_v33_apply,
    show idx_main_call0_v1 (ix1 e) k = ix2 e k from funext fun a => by match a with | ⟨0, _⟩ => rfl | ⟨1, _⟩ => rfl,
    g25, g32]
  rfl

/-- The distance with its floor. -/
theorem v36_at : val_main_v36 (F := Ideal) x0 x4 (ix1 e)
    = max (Ideal.sqrt (Cert.Edge.cZero + ∑ k : Fin 3, (x0 (ix2 (src x4 e) k) - x0 (ix2 (dst x4 e) k)) * (x0 (ix2 (src x4 e) k) - x0 (ix2 (dst x4 e) k)))) Cert.Edge.cMin := by
  rw [val_main_v36_apply, v34_at, val_main_v35_apply, val_main_cst_apply]
  rfl

/-- The same distance in atomic units. -/
theorem v41_at : val_main_v41 (F := Ideal) x0 x4 (ix1 e)
    = max (Ideal.sqrt (Cert.Edge.cZero + ∑ k : Fin 3, (x0 (ix2 (src x4 e) k) - x0 (ix2 (dst x4 e) k)) * (x0 (ix2 (src x4 e) k) - x0 (ix2 (dst x4 e) k)))) Cert.Edge.cMin * Cert.Edge.cAu := by
  rw [val_main_v41_apply, v36_at, val_main_v40_apply, val_main_cst_8_apply]
  rfl

/-- THE REFERENCE'S NUMBER OF EDGE `e` is the scalar function `Cert.Edge.refRep` of the two atoms' positions, their
    elements' entries in the two tables, and their molecule indices. -/
theorem v108_apply : val_main_v108 (F := Ideal) x0 x1 x2 x3 x4 x5 (ix1 e)
    = Cert.Edge.refRep (fun k => x0 (ix2 (Cert.Edge.atomOf (x4 (ix2 0 e))) k))
        (fun k => x0 (ix2 (Cert.Edge.atomOf (x4 (ix2 1 e))) k))
        (x1 (ix1 (Cert.Edge.elemOf (x3 (ix1 (Cert.Edge.atomOf (x4 (ix2 0 e))))))))
        (x2 (ix1 (Cert.Edge.elemOf (x3 (ix1 (Cert.Edge.atomOf (x4 (ix2 0 e))))))))
        (x1 (ix1 (Cert.Edge.elemOf (x3 (ix1 (Cert.Edge.atomOf (x4 (ix2 1 e))))))))
        (x2 (ix1 (Cert.Edge.elemOf (x3 (ix1 (Cert.Edge.atomOf (x4 (ix2 1 e))))))))
        (x5 (ix1 (Cert.Edge.atomOf (x4 (ix2 0 e))))) (x5 (ix1 (Cert.Edge.atomOf (x4 (ix2 1 e))))) := by
  rw [val_main_v108_apply, val_main_v39_apply, val_main_v18_apply, g10, g17, val_main_v38_apply, v36_at,
    val_main_v37_apply, val_main_cst_7_apply, val_main_v107_apply, val_main_v106_apply, val_main_v105_apply, g90, g104,
    val_main_v76_apply, val_main_v75_apply, val_main_v72_apply, val_main_v71_apply, val_main_v70_apply, g55, g69,
    val_main_v74_apply, v41_at, val_main_v73_apply, val_main_cst_17_apply, val_main_call1_v1_apply,
    val_main_call1_v0_apply, val_main_cst_26_apply]
  rfl

/-- THE MOLECULE EDGE `e` IS SUMMED INTO: the source atom's. -/
theorem v115_apply : val_main_v115 (F := Ideal) x4 x5 (ix1 e) = x5 (ix1 (Cert.Edge.atomOf (x4 (ix2 0 e)))) := by
  unfold val_main_v115
  rw [take200k, col114]
  rfl

end Value

end Cert.ReferenceIdeal.RefValue

end
-- ==== Proof.PreDecode.lean ====
/-
  What the precondition says, read out of its printed form: every position coordinate is a real number, and
  every edge-endpoint word lies in the atom axis.

  The precondition is a conjunction of four "for all" statements, each printed as a reduction by `and` over all
  axes of an array of truth values: |pos| < +∞, |a| < +∞ and |q| < +∞ coordinate by coordinate, and
  0 ≤ w < 200000 for every edge-endpoint word w.  The conjunction being true makes each conjunct true, a
  reduction by `and` that is true had a true at every index, and at one index the two facts wanted are:
  an extended real x with max x (−x) < ⊤ is neither ⊤ nor ⊥, hence a real; and the signed comparisons of a
  word with the words 0 and 200000 are the comparisons of its signed value with the integers 0 and 200000.
-/
import proofs.«401051_j18562848654089_3_alg».proof.Pre_finite_inputs
import proofs.«401051_j18562848654089_3_alg».proof.Proof.EdgeSpec
import Idealize.ShloMosaic.PureOps.Ideal
import Idealize.ShloMosaic.Lib.ReduceAll
import Idealize.ShloMosaic.Lib.StableHlo.Predicate

noncomputable section

namespace Cert.PreDecode

open Idealize.ShloMosaic

/-- The shape with no axes has exactly one index. -/
instance : Subsingleton Cert.Pre_finite_inputs.S_.Idx := ⟨fun a b => funext fun d => d.elim0⟩

/-- An extended real whose absolute value max x (−x) lies strictly below ⊤ is a real number: ⊤ has
    max ⊤ ⊥ = ⊤ and ⊥ has max ⊥ ⊤ = ⊤, neither below ⊤. -/
theorem real_of_abs_lt_top (x : EReal) (h : Ideal.cmp .olt (max x (-x)) ⊤ = 1#1) : ∃ r : ℝ, x = (r : EReal) := by
  simp only [Ideal.cmp, StableHlo.Predicate.ofBool_eq_one_iff, decide_eq_true_eq] at h
  induction x using EReal.rec with
  | bot => simp at h
  | coe r => exact ⟨r, rfl⟩
  | top => simp at h

/-- A 32-bit word that compares signed ≥ the word 0 and signed < the word 200000 has its signed value
    in [0, 200000): the two words have signed values 0 and 200000. -/
theorem range_of_cmp (w : BitVec 32) (h1 : IntOp.cmpi .sge w 0#32 = 1#1) (h2 : IntOp.cmpi .slt w 200000#32 = 1#1) :
    0 ≤ w.toInt ∧ w.toInt < 200000 := by
  simp only [IntOp.cmpi, StableHlo.Predicate.ofBool_eq_one_iff, BitVec.sle, BitVec.slt, decide_eq_true_eq] at h1 h2
  have e0 : (0#32 : BitVec 32).toInt = 0 := by decide
  have e1 : (200000#32 : BitVec 32).toInt = 200000 := by decide
  rw [e0] at h1; rw [e1] at h2
  exact ⟨h1, h2⟩

theorem decode [Cert.Pre_finite_inputs.Facts]
    (a0 : FVec Ideal Cert.Pre_finite_inputs.S200000x3 .f32) (a1 a2 : FVec Ideal Cert.Pre_finite_inputs.S11 .f32)
    (a3 : IVec Cert.Pre_finite_inputs.S200000 32) (a4 : IVec Cert.Pre_finite_inputs.S2x12800000 32)
    (a5 : IVec Cert.Pre_finite_inputs.S200000 32)
    (h : Cert.Pre_finite_inputs.fn (F := Ideal) a0 a1 a2 a3 a4 a5 = fun _ => 1#1) :
    Cert.Edge.FinitePos a0 ∧ Cert.Edge.InRange a4 := by
  -- the one truth value of the precondition, written out as the conjunction of its four reductions
  have h0 := congrFun h ValueIdx.ix0
  dsimp only [Cert.Pre_finite_inputs.fn, Cert.Pre_finite_inputs.fn_part1] at h0
  -- the single-precision pattern of +∞ denotes ⊤
  have htop : Ideal.ofBits .f32 0x7F800000#32 = ⊤ := by simp [Ideal.ofBits, Ideal.ieee]
  -- ((positions ∧ a-table) ∧ q-table) ∧ edge words: keep the first and the last conjunct
  obtain ⟨h123, h4⟩ := IntOp.andi_eq_one.1 h0
  obtain ⟨h12, _⟩ := IntOp.andi_eq_one.1 h123
  obtain ⟨h1, _⟩ := IntOp.andi_eq_one.1 h12
  constructor
  · -- at the coordinate i: |pos i| < +∞, so pos i is a real
    intro i
    have e := Host.reduce_andi_all _ _ _ _ _ h1 i
    apply real_of_abs_lt_top
    rw [← htop]
    exact e
  · -- at the word i: (w ≥ 0) ∧ (w < 200000), both signed
    intro i
    have e := Host.reduce_andi_all _ _ _ _ _ h4 i
    obtain ⟨e1, e2⟩ := IntOp.andi_eq_one.1 e
    exact range_of_cmp _ e1 e2

end Cert.PreDecode

end
-- ==== Proof.Bridge.lean ====
/-
  The two programs compute the same per-molecule energies.

  Both programs end with the same three host steps: the per-edge contributions are summed into the 2048
  molecules by the molecule index of each edge's source atom, the sums are scaled by one constant, and the result
  is laid out as a column.  So the two results are equal as soon as, edge by edge, the contribution and the
  molecule index are: `upd_eq` and `seg_eq`.  For the contribution, the kernel program gathers the six features of
  either endpoint into two arrays, streams them through its pipelined call and leaves at edge e the first
  spelling of the pair interaction (`Edge.kerRep`) of the two endpoints' features; the reference gathers
  positions, table entries and molecule indices separately and computes the second spelling (`Edge.refRep`);
  for real positions the two spellings agree.  Both facts need every edge endpoint to name an atom: the
  kernel's gather fills an out-of-range column with a value that is no feature, the reference's reads the nearest
  atom.  For the molecule index, the kernel reads it back out of its real-valued copy in the feature table, and
  rounding an integer-valued real gives the integer back.
-/
import proofs.«401051_j18562848654089_3_alg».proof.Defs
import proofs.«401051_j18562848654089_3_alg».proof.Proof.KIData
import proofs.«401051_j18562848654089_3_alg».proof.Proof.KIFrame
import proofs.«401051_j18562848654089_3_alg».proof.Proof.KBFrame
import proofs.«401051_j18562848654089_3_alg».proof.Proof.KIPrefix
import proofs.«401051_j18562848654089_3_alg».proof.Proof.KIBlocks
import proofs.«401051_j18562848654089_3_alg».proof.Proof.KITail
import proofs.«401051_j18562848654089_3_alg».proof.Proof.RefValue
import proofs.«401051_j18562848654089_3_alg».proof.Proof.EdgeSpec
import proofs.«401051_j18562848654089_3_alg».proof.Proof.EdgeMath
import proofs.«401051_j18562848654089_3_alg».proof.Proof.PreDecode
import proofs.«401051_j18562848654089_3_alg».proof.Proof.Gen.Kernel
import proofs.«401051_j18562848654089_3_alg».proof.Proof.Gen.KernelIdeal
import proofs.«401051_j18562848654089_3_alg».proof.Proof.Gen.ReferenceIdeal
import proofs.«401051_j18562848654089_3_alg».proof.Proof.Gen.ReferenceIdeal.Run
import proofs.«401051_j18562848654089_3_alg».proof.Proof.Gen.ReferenceIdeal.Read
import proofs.«401051_j18562848654089_3_alg».proof.Proof.Gen.Pre_finite_inputs
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.KernelIdeal.Frame

section value

variable (m : (ℓ : Loc Cert.KernelIdeal.nD Cert.KernelIdeal.τ Cert.KernelIdeal.sig) → Buf (Elt Ideal) ℓ) (c : Dev Cert.KernelIdeal.nD)

/-- Edge by edge, what the kernel's call leaves is the reference's masked contribution: the call leaves the first
    spelling of the pair interaction of the two gathered feature columns, the columns are the endpoints' features,
    the positions among them are reals, and there the two spellings agree. -/
theorem upd_eq (hfin : Cert.Edge.FinitePos (a0 m c)) (hr : Cert.Edge.InRange (a4 m c))
    (h : Cert.KernelIdeal.S1x12800000.ShapeCasts Cert.KernelIdeal.S12800000) :
    (shapeCast Cert.KernelIdeal.S12800000 ((dats m 0 c).arrAt 2 Cert.KernelIdeal.cfg0.N : Cert.KernelIdeal.S1x12800000.Idx → EReal) h
        : Cert.KernelIdeal.S12800000.Idx → EReal)
      = Cert.ReferenceIdeal.Read.val_main_v108 (F := Ideal) (a0 m c) (a1 m c) (a2 m c) (a3 m c) (a4 m c) (a5 m c) := by
  funext j
  obtain ⟨e, rfl⟩ : ∃ e : Fin 12800000, j = ix1 e := ⟨j 0, eq_ix1 j⟩
  rw [shapeCast_1a_a_apply, final2_apply, Cert.ReferenceIdeal.RefValue.v108_apply]
  simp only [V_v32_apply m c hr, V_v33_apply m c hr]
  choose p hp using hfin
  simp only [feat, hp]
  exact Cert.Edge.kerRep_eq_refRep (fun k => p (ix2 (Cert.Edge.atomOf (a4 m c (ix2 0 e))) k))
    (fun k => p (ix2 (Cert.Edge.atomOf (a4 m c (ix2 1 e))) k)) _ _ _ _ _ _

/-- Edge by edge, both programs sum into the molecule of the edge's source atom. -/
theorem seg_eq (hr : Cert.Edge.InRange (a4 m c)) :
    (V m c Cert.KernelIdeal.main_v37 : Cert.KernelIdeal.S12800000.Idx → BitVec 32)
      = Cert.ReferenceIdeal.Read.val_main_v115 (F := Ideal) (a4 m c) (a5 m c) := by
  funext j
  obtain ⟨e, rfl⟩ : ∃ e : Fin 12800000, j = ix1 e := ⟨j 0, eq_ix1 j⟩
  rw [V_v37_apply m c hr, Cert.ReferenceIdeal.RefValue.v115_apply]

/-- The kernel program's result is the reference's result term of the same arguments: the same sum into
    molecules, scaling and layout of equal per-edge arrays. -/
theorem value_eq (hfin : Cert.Edge.FinitePos (a0 m c)) (hr : Cert.Edge.InRange (a4 m c)) :
    (Pipeline.afterTail₀ Cert.KernelIdeal.cfgs (dats m) 0 (V0 m) [Cert.KernelIdeal.Gen.hostOps1] c Cert.KernelIdeal.main_v45
        : Cert.KernelIdeal.S2048x1.Idx → EReal)
      = Cert.ReferenceIdeal.Read.val_main_v121 (F := Ideal) (a0 m c) (a1 m c) (a2 m c) (a3 m c) (a4 m c) (a5 m c) := by
  rw [tail_v45, seg_eq m c hr, upd_eq m c hfin hr]
  rfl

end value

/-! ## The claims -/

/-- The word-level program runs to the end without a fault and leaves its arguments as they were. -/
theorem frame_k : Cert.frame_Kernel (hKernel := Cert.Kernel.Gen.facts) (hPre_finite_inputs := Cert.Pre_finite_inputs.Gen.facts) :=
  fun m ρ _ => Cert.Kernel.Frame.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- So does the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the same energies: the kernel program at its
    tail's value, the reference at its run's term, and the two are one function of the arguments where the
    precondition holds (real positions, edge endpoints naming atoms). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Pipeline.afterTail₀ Cert.KernelIdeal.cfgs (dats m) 0 (V0 m) [Cert.KernelIdeal.Gen.hostOps1] c Cert.KernelIdeal.main_v45,
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  obtain ⟨hfin, hr⟩ := Cert.PreDecode.decode _ _ _ _ _ _ (hpre c)
  rw [Cert.ReferenceIdeal.Read.val_main_v121_eq, (hagree c).1, (hagree c).2.1, (hagree c).2.2.1, (hagree c).2.2.2.1,
    (hagree c).2.2.2.2.1, (hagree c).2.2.2.2.2]
  exact (value_eq m c hfin hr).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Bridge

end
-- ==== Proof.lean ====
/-
  The screened pair repulsion of a batch of molecules, summed per molecule: the Pallas program and its plain
  reference agree on the extended reals.

  For each edge (s, d) of the molecular graph both programs compute q_s q_d exp(−√(a_s a_d) ρ^{3/2}) / ρ, with
  ρ the distance of the two atoms (never below a small floor) in atomic units, keep it when the atoms lie in
  one molecule within the cutoff, and sum the kept values into the molecule of the source atom.  The Pallas
  program first gathers six features per endpoint (position, the two element parameters, the molecule index as
  a real) into two feature-major arrays and computes ρ^{3/2} as ρ √ρ inside its pipelined call; the reference
  gathers each quantity where it uses it and takes a real power.  Where every position is a real number and
  every edge endpoint names an atom the two agree edge by edge, hence molecule by molecule (Proof/Bridge.lean);
  each program also runs to the end without a fault and leaves its arguments unchanged, and the idealized
  Pallas program is the printed one read at the extended reals with no rewrite.
-/
import proofs.«401051_j18562848654089_3_alg».proof.Defs
import proofs.«401051_j18562848654089_3_alg».proof.Proof.Gen.Kernel
import proofs.«401051_j18562848654089_3_alg».proof.Proof.Gen.Kernel.Skeleton
import proofs.«401051_j18562848654089_3_alg».proof.Proof.Gen.Kernel.Launch
import proofs.«401051_j18562848654089_3_alg».proof.Proof.Gen.Kernel.Points
import proofs.«401051_j18562848654089_3_alg».proof.Proof.Gen.KernelIdeal
import proofs.«401051_j18562848654089_3_alg».proof.Proof.Gen.KernelIdeal.Skeleton
import proofs.«401051_j18562848654089_3_alg».proof.Proof.Gen.KernelIdeal.Launch
import proofs.«401051_j18562848654089_3_alg».proof.Proof.Gen.KernelIdeal.Points
import proofs.«401051_j18562848654089_3_alg».proof.Proof.Gen.ReferenceIdeal
import proofs.«401051_j18562848654089_3_alg».proof.Proof.Gen.ReferenceIdeal.Run
import proofs.«401051_j18562848654089_3_alg».proof.Proof.Gen.ReferenceIdeal.Read
import proofs.«401051_j18562848654089_3_alg».proof.Proof.Gen.Pre_finite_inputs
import proofs.«401051_j18562848654089_3_alg».proof.Proof.Bridge
import Idealize.ShloMosaic.Adequacy
import Idealize.ShloMosaic.Init

noncomputable section

namespace Cert.Proof

open Idealize.ShloMosaic Idealize.SL.Sem Cert.Kernel

theorem claim : Cert.Claim := Cert.Bridge.claim

end Cert.Proof

end
